-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v21)) (v3 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_v18) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_v22) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x400000x4 : Shape := ⟨3, ![8, 400000, 4]⟩
abbrev S8x400000x3 : Shape := ⟨3, ![8, 400000, 3]⟩
abbrev S3200000 : Shape := ⟨1, ![3200000]⟩
abbrev S8x2x3 : Shape := ⟨3, ![8, 2, 3]⟩
abbrev S8x3 : Shape := ⟨2, ![8, 3]⟩
abbrev S_ : Shape := ⟨0, ![]⟩

class Facts : Prop where
  bcast_S_S8x400000x4 : S_.BroadcastsInDim S8x400000x4 (![] : Fin 0 → Fin S8x400000x4.rank)
  reducesTo_S8x400000x4_S_d0_1_2 : S8x400000x4.ReducesTo [0, 1, 2] S_
  h_S_ : 0 < S_.numel
  bcast_S_S8x400000x3 : S_.BroadcastsInDim S8x400000x3 (![] : Fin 0 → Fin S8x400000x3.rank)
  reducesTo_S8x400000x3_S_d0_1_2 : S8x400000x3.ReducesTo [0, 1, 2] S_
  bcast_S_S8x2x3 : S_.BroadcastsInDim S8x2x3 (![] : Fin 0 → Fin S8x2x3.rank)
  reducesTo_S8x2x3_S_d0_1_2 : S8x2x3.ReducesTo [0, 1, 2] S_
  bcast_S_S8x3 : S_.BroadcastsInDim S8x3 (![] : Fin 0 → Fin S8x3.rank)
  reducesTo_S8x3_S_d0_1 : S8x3.ReducesTo [0, 1] S_

variable [Facts]

def fn_part1 {F : FTy → Type} [FloatOps F] (main_v13 : IVec S_ 1) (main_v16 : IVec S8x3 1) : IVec S_ 1 :=
  let main_c_5 : IVec S_ 1 := constantI S_ 1 1#1
  let main_v17 : IVec S_ 1 := (fun x v => Host.reduce IntOp.andi x v reducesTo_S8x3_S_d0_1 h_S_) main_v16 main_c_5
  let main_v18 : IVec S_ 1 := andi main_v13 main_v17
  main_v18

def fn {F : FTy → Type} [FloatOps F] (main_arg0 : FVec F S8x400000x4 .f32) (main_arg1 : FVec F S8x400000x3 .f32) (main_arg2 : IVec S3200000 32) (main_arg3 : FVec F S8x2x3 .f32) (main_arg4 : FVec F S8x3 .f32) : IVec S_ 1 :=
  let main_v0 : FVec F S8x400000x4 .f32 := Host.absf main_arg0
  let main_cst : FVec F S_ .f32 := constant S_ .f32 0x7F800000#32
  let main_v1 : FVec F S8x400000x4 .f32 := broadcastInDim S8x400000x4 ![] bcast_S_S8x400000x4 main_cst
  let main_v2 : IVec S8x400000x4 1 := cmpf .olt main_v0 main_v1
  let main_c : IVec S_ 1 := constantI S_ 1 1#1
  let main_v3 : IVec S_ 1 := (fun x v => Host.reduce IntOp.andi x v reducesTo_S8x400000x4_S_d0_1_2 h_S_) main_v2 main_c
  let main_v4 : FVec F S8x400000x3 .f32 := Host.absf main_arg1
  let main_cst_0 : FVec F S_ .f32 := constant S_ .f32 0x7F800000#32
  let main_v5 : FVec F S8x400000x3 .f32 := broadcastInDim S8x400000x3 ![] bcast_S_S8x400000x3 main_cst_0
  let main_v6 : IVec S8x400000x3 1 := cmpf .olt main_v4 main_v5
  let main_c_1 : IVec S_ 1 := constantI S_ 1 1#1
  let main_v7 : IVec S_ 1 := (fun x v => Host.reduce IntOp.andi x v reducesTo_S8x400000x3_S_d0_1_2 h_S_) main_v6 main_c_1
  let main_v8 : IVec S_ 1 := andi main_v3 main_v7
  let main_v9 : FVec F S8x2x3 .f32 := Host.absf main_arg3
  let main_cst_2 : FVec F S_ .f32 := constant S_ .f32 0x7F800000#32
  let main_v10 : FVec F S8x2x3 .f32 := broadcastInDim S8x2x3 ![] bcast_S_S8x2x3 main_cst_2
  let main_v11 : IVec S8x2x3 1 := cmpf .olt main_v9 main_v10
  let main_c_3 : IVec S_ 1 := constantI S_ 1 1#1
  let main_v12 : IVec S_ 1 := (fun x v => Host.reduce IntOp.andi x v reducesTo_S8x2x3_S_d0_1_2 h_S_) main_v11 main_c_3
  let main_v13 : IVec S_ 1 := andi main_v8 main_v12
  let main_v14 : FVec F S8x3 .f32 := Host.absf main_arg4
  let main_cst_4 : FVec F S_ .f32 := constant S_ .f32 0x7F800000#32
  let main_v15 : FVec F S8x3 .f32 := broadcastInDim S8x3 ![] bcast_S_S8x3 main_cst_4
  let main_v16 : IVec S8x3 1 := cmpf .olt main_v14 main_v15
  fn_part1 (F := F) main_v13 main_v16
-- ==== Kernel.lean ====
abbrev S8x400000x4 : Shape := ⟨3, ![8, 400000, 4]⟩
abbrev S8x400000x3 : Shape := ⟨3, ![8, 400000, 3]⟩
abbrev S3200000 : Shape := ⟨1, ![3200000]⟩
abbrev S8x2x3 : Shape := ⟨3, ![8, 2, 3]⟩
abbrev S8x3 : Shape := ⟨2, ![8, 3]⟩
abbrev S8x1600x4 : Shape := ⟨3, ![8, 1600, 4]⟩
abbrev S8x1600x3 : Shape := ⟨3, ![8, 1600, 3]⟩
abbrev S_ : Shape := ⟨0, ![]⟩
abbrev S8x1x3 : Shape := ⟨3, ![8, 1, 3]⟩
abbrev S8x400000 : Shape := ⟨2, ![8, 400000]⟩
abbrev S8x640x4 : Shape := ⟨3, ![8, 640, 4]⟩
abbrev S8x640x3 : Shape := ⟨3, ![8, 640, 3]⟩
abbrev S8x640 : Shape := ⟨2, ![8, 640]⟩
abbrev S8x640x1 : Shape := ⟨3, ![8, 640, 1]⟩

abbrev nBuf : Space → Nat
  | .hbm => 39
  | .vmem => 18
  | .smem => 0
  | _ => 0

abbrev bufTy : (tb : Table) → Fin (tcTables nBuf tb) → BufTy
  | .hbm, ⟨0, _⟩ => ⟨S8x400000x4, .f32⟩
  | .hbm, ⟨1, _⟩ => ⟨S8x400000x3, .f32⟩
  | .hbm, ⟨2, _⟩ => ⟨S3200000, .i32⟩
  | .hbm, ⟨3, _⟩ => ⟨S8x2x3, .f32⟩
  | .hbm, ⟨4, _⟩ => ⟨S8x3, .f32⟩
  | .hbm, ⟨5, _⟩ => ⟨S8x3, .f32⟩
  | .hbm, ⟨6, _⟩ => ⟨S8x3, .f32⟩
  | .hbm, ⟨7, _⟩ => ⟨S8x3, .f32⟩
  | .hbm, ⟨8, _⟩ => ⟨S_, .f32⟩
  | .hbm, ⟨9, _⟩ => ⟨S8x3, .f32⟩
  | .hbm, ⟨10, _⟩ => ⟨S8x3, .f32⟩
  | .hbm, ⟨11, _⟩ => ⟨S8x3, .f32⟩
  | .hbm, ⟨12, _⟩ => ⟨S_, .f32⟩
  | .hbm, ⟨13, _⟩ => ⟨S8x3, .f32⟩
  | .hbm, ⟨14, _⟩ => ⟨S8x3, .f32⟩
  | .hbm, ⟨15, _⟩ => ⟨S_, .f32⟩
  | .hbm, ⟨16, _⟩ => ⟨S_, .f32⟩
  | .hbm, ⟨17, _⟩ => ⟨S8x3, .f32⟩
  | .hbm, ⟨18, _⟩ => ⟨S8x3, .f32⟩
  | .hbm, ⟨19, _⟩ => ⟨S8x1x3, .f32⟩
  | .hbm, ⟨20, _⟩ => ⟨S8x3, .f32⟩
  | .hbm, ⟨21, _⟩ => ⟨S8x3, .f32⟩
  | .hbm, ⟨22, _⟩ => ⟨S8x3, .f32⟩
  | .hbm, ⟨23, _⟩ => ⟨S_, .f32⟩
  | .hbm, ⟨24, _⟩ => ⟨S8x3, .f32⟩
  | .hbm, ⟨25, _⟩ => ⟨S8x3, .f32⟩
  | .hbm, ⟨26, _⟩ => ⟨S_, .f32⟩
  | .hbm, ⟨27, _⟩ => ⟨S_, .f32⟩
  | .hbm, ⟨28, _⟩ => ⟨S8x3, .f32⟩
  | .hbm, ⟨29, _⟩ => ⟨S8x3, .f32⟩
  | .hbm, ⟨30, _⟩ => ⟨S8x1x3, .f32⟩
  | .hbm, ⟨31, _⟩ => ⟨S8x3, .f32⟩
  | .hbm, ⟨32, _⟩ => ⟨S8x3, .f32⟩
  | .hbm, ⟨33, _⟩ => ⟨S8x3, .f32⟩
  | .hbm, ⟨34, _⟩ => ⟨S8x400000, .i32⟩
  | .hbm, ⟨35, _⟩ => ⟨S8x400000x4, .i32⟩
  | .hbm, ⟨36, _⟩ => ⟨S8x400000x3, .f32⟩
  | .hbm, ⟨37, _⟩ => ⟨S8x400000, .i32⟩
  | .hbm, ⟨38, _⟩ => ⟨S3200000, .i32⟩
  | .local _ .vmem, ⟨0, _⟩ => ⟨S8x1600x4, .f32⟩
  | .local _ .vmem, ⟨1, _⟩ => ⟨S8x1600x4, .f32⟩
  | .local _ .vmem, ⟨2, _⟩ => ⟨S8x3, .f32⟩
  | .local _ .vmem, ⟨3, _⟩ => ⟨S8x3, .f32⟩
  | .local _ .vmem, ⟨4, _⟩ => ⟨S8x640x4, .f32⟩
  | .local _ .vmem, ⟨5, _⟩ => ⟨S8x640x4, .f32⟩
  | .local _ .vmem, ⟨6, _⟩ => ⟨S8x640x3, .f32⟩
  | .local _ .vmem, ⟨7, _⟩ => ⟨S8x640x3, .f32⟩
  | .local _ .vmem, ⟨8, _⟩ => ⟨S8x640, .i32⟩
  | .local _ .vmem, ⟨9, _⟩ => ⟨S8x640, .i32⟩
  | .local _ .vmem, ⟨10, _⟩ => ⟨S8x3, .f32⟩
  | .local _ .vmem, ⟨11, _⟩ => ⟨S8x3, .f32⟩
  | .local _ .vmem, ⟨12, _⟩ => ⟨S8x640x4, .i32⟩
  | .local _ .vmem, ⟨13, _⟩ => ⟨S8x640x4, .i32⟩
  | .local _ .vmem, ⟨14, _⟩ => ⟨S8x640x3, .f32⟩
  | .local _ .vmem, ⟨15, _⟩ => ⟨S8x640x3, .f32⟩
  | .local _ .vmem, ⟨16, _⟩ => ⟨S8x640, .i32⟩
  | .local _ .vmem, ⟨17, _⟩ => ⟨S8x640, .i32⟩
  | _, _ => ⟨S8x400000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20_0 : Ref sig .tc := ⟨.hbm, 35, rfl⟩
abbrev main_v20_1 : Ref sig .tc := ⟨.hbm, 36, rfl⟩
abbrev main_v20_2 : Ref sig .tc := ⟨.hbm, 37, rfl⟩
abbrev main_v21 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem5_1 : DmaSem sig := 13
abbrev cc1_sem6_0 : DmaSem sig := 14
abbrev cc1_sem6_1 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨1, ![250], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x1600x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![625], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S8x640x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x640x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x640 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S8x3 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x3 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8x640x4 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S8x640x3 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S8x640 .i32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  inb_S8x1600x4_S8x1600x4_0_0_0 : ∀ a, (![0, 0, 0] : Fin 3 → Nat) a + S8x1600x4.size a ≤ S8x1600x4.size a
  h_S8x1600x4 : 0 < S8x1600x4.numel
  slices_S8x1600x4_o0_0_0_S8x1600x3 : S8x1600x4.Slices ![0, 0, 0] S8x1600x3
  reduces_S8x1600x3_S8x3 : S8x1600x3.Reduces [1] S8x3
  inb_S8x3_S8x3_0_0 : ∀ a, (![0, 0] : Fin 2 → Nat) a + S8x3.size a ≤ S8x3.size a
  h_S8x3 : 0 < S8x3.numel
  shapeCasts_S8x3_S8x3 : S8x3.ShapeCasts S8x3
  bcast_S_S8x3 : S_.BroadcastsInDim S8x3 (![] : Fin 0 → Fin S8x3.rank)
  slices_S8x2x3_S8x1x3_0_0_0 : S8x2x3.Slices ![0, 0, 0] S8x1x3
  shapeCasts_S8x1x3_S8x3 : S8x1x3.ShapeCasts S8x3
  slices_S8x2x3_S8x1x3_0_1_0 : S8x2x3.Slices ![0, 1, 0] S8x1x3
  shapeCasts_S3200000_S8x400000 : S3200000.ShapeCasts S8x400000
  inb_S8x640x4_S8x640x4_0_0_0 : ∀ a, (![0, 0, 0] : Fin 3 → Nat) a + S8x640x4.size a ≤ S8x640x4.size a
  h_S8x640x4 : 0 < S8x640x4.numel
  slices_S8x640x4_o0_0_0_S8x640x3 : S8x640x4.Slices ![0, 0, 0] S8x640x3
  shapeCasts_S8x3_S8x1x3 : S8x3.ShapeCasts S8x1x3
  broadcasts_S8x1x3_S8x640x3 : S8x1x3.Broadcasts S8x640x3
  reduces_S8x640x3_S8x640 : S8x640x3.Reduces [2] S8x640
  inb_S8x640_S8x640_0_0 : ∀ a, (![0, 0] : Fin 2 → Nat) a + S8x640.size a ≤ S8x640.size a
  h_S8x640 : 0 < S8x640.numel
  shapeCasts_S8x640_S8x640 : S8x640.ShapeCasts S8x640
  natLt_1_32 : 1 < 32
  iota_S8x640x1_d0_w32 : S8x640x1.Iotas .tc 32 [0]
  concatenates_S8x640x3_S8x640x1_S8x640x4_d2 : Shape.Concatenates [S8x640x3, S8x640x1] S8x640x4 2
  shapeCasts_S8x640_S8x640x1 : S8x640.ShapeCasts S8x640x1
  broadcasts_S8x640x1_S8x640x4 : S8x640x1.Broadcasts S8x640x4
  inb_S8x640x3_S8x640x3_0_0_0 : ∀ a, (![0, 0, 0] : Fin 3 → Nat) a + S8x640x3.size a ≤ S8x640x3.size a
  h_S8x640x3 : 0 < S8x640x3.numel
  broadcasts_S8x640x1_S8x640x3 : S8x640x1.Broadcasts S8x640x3
  shapeCasts_S8x400000_S3200000 : S8x400000.ShapeCasts S3200000
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1600x4.size a ≤ S8x400000x4.size a
  hwx0_0 : ∀ i : grid0.Coords, EltTy.bits .f32 = 32 ∨ (Rect.block (s := S8x400000x4) S8x1600x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x3.size a ≤ S8x3.size a
  hwx0_1 : ∀ i : grid0.Coords, EltTy.bits .f32 = 32 ∨ (Rect.block (s := S8x3) S8x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x3.size a ≤ S8x3.size a
  hwx0_2 : ∀ i : grid0.Coords, EltTy.bits .f32 = 32 ∨ (Rect.block (s := S8x3) S8x3.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x640x4.size a ≤ S8x400000x4.size a
  hwx1_0 : ∀ i : grid1.Coords, EltTy.bits .f32 = 32 ∨ (Rect.block (s := S8x400000x4) S8x640x4.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x640x3.size a ≤ S8x400000x3.size a
  hwx1_1 : ∀ i : grid1.Coords, EltTy.bits .f32 = 32 ∨ (Rect.block (s := S8x400000x3) S8x640x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x640.size a ≤ S8x400000.size a
  hwx1_2 : ∀ i : grid1.Coords, EltTy.bits .i32 = 32 ∨ (Rect.block (s := S8x400000) S8x640.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x3.size a ≤ S8x3.size a
  hwx1_3 : ∀ i : grid1.Coords, EltTy.bits .f32 = 32 ∨ (Rect.block (s := S8x3) S8x3.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x3.size a ≤ S8x3.size a
  hwx1_4 : ∀ i : grid1.Coords, EltTy.bits .f32 = 32 ∨ (Rect.block (s := S8x3) S8x3.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x640x4.size a ≤ S8x400000x4.size a
  hwx1_5 : ∀ i : grid1.Coords, EltTy.bits .i32 = 32 ∨ (Rect.block (s := S8x400000x4) S8x640x4.size (cc1_transform_5 i) (hinb1_5 i)).WholeWords (EltTy.packing .i32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8x640x3.size a ≤ S8x400000x3.size a
  hwx1_6 : ∀ i : grid1.Coords, EltTy.bits .f32 = 32 ∨ (Rect.block (s := S8x400000x3) S8x640x3.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8x640.size a ≤ S8x400000.size a
  hwx1_7 : ∀ i : grid1.Coords, EltTy.bits .i32 = 32 ∨ (Rect.block (s := S8x400000) S8x640.size (cc1_transform_7 i) (hinb1_7 i)).WholeWords (EltTy.packing .i32)

variable [Facts₀]

abbrev win0_0 : Pipeline.Window sig grid0 :=
  Pipeline.Window.ofSpec (Memref.whole main_arg0) S8x1600x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S8x3.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S8x3.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S8x640x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S8x640x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S8x640.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S8x3.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S8x3.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20_0) S8x640x4.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v20_1) S8x640x3.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v20_2) S8x640.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S8x400000x4 : Shape := ⟨3, ![8, 400000, 4]⟩
abbrev S8x400000x3 : Shape := ⟨3, ![8, 400000, 3]⟩
abbrev S3200000 : Shape := ⟨1, ![3200000]⟩
abbrev S8x2x3 : Shape := ⟨3, ![8, 2, 3]⟩
abbrev S8x3 : Shape := ⟨2, ![8, 3]⟩
abbrev S_ : Shape := ⟨0, ![]⟩
abbrev S8x1x3 : Shape := ⟨3, ![8, 1, 3]⟩
abbrev S8x400000 : Shape := ⟨2, ![8, 400000]⟩
abbrev S8 : Shape := ⟨1, ![8]⟩
abbrev S8x1x1 : Shape := ⟨3, ![8, 1, 1]⟩
abbrev S8x400000x1 : Shape := ⟨3, ![8, 400000, 1]⟩

abbrev nBuf : Space → Nat
  | .hbm => 78
  | .vmem => 0
  | .smem => 0
  | _ => 0

abbrev bufTy : (tb : Table) → Fin (tcTables nBuf tb) → BufTy
  | .hbm, ⟨0, _⟩ => ⟨S8x400000x4, .f32⟩
  | .hbm, ⟨1, _⟩ => ⟨S8x400000x3, .f32⟩
  | .hbm, ⟨2, _⟩ => ⟨S3200000, .i32⟩
  | .hbm, ⟨3, _⟩ => ⟨S8x2x3, .f32⟩
  | .hbm, ⟨4, _⟩ => ⟨S8x3, .f32⟩
  | .hbm, ⟨5, _⟩ => ⟨S8x400000x3, .f32⟩
  | .hbm, ⟨6, _⟩ => ⟨S_, .f32⟩
  | .hbm, ⟨7, _⟩ => ⟨S8x400000x3, .f32⟩
  | .hbm, ⟨8, _⟩ => ⟨S8x400000x3, .f32⟩
  | .hbm, ⟨9, _⟩ => ⟨S_, .f32⟩
  | .hbm, ⟨10, _⟩ => ⟨S8x3, .f32⟩
  | .hbm, ⟨11, _⟩ => ⟨S_, .f32⟩
  | .hbm, ⟨12, _⟩ => ⟨S8x3, .f32⟩
  | .hbm, ⟨13, _⟩ => ⟨S8x3, .f32⟩
  | .hbm, ⟨14, _⟩ => ⟨S_, .f32⟩
  | .hbm, ⟨15, _⟩ => ⟨S8x3, .f32⟩
  | .hbm, ⟨16, _⟩ => ⟨S8x3, .f32⟩
  | .hbm, ⟨17, _⟩ => ⟨S8x3, .f32⟩
  | .hbm, ⟨18, _⟩ => ⟨S_, .f32⟩
  | .hbm, ⟨19, _⟩ => ⟨S8x3, .f32⟩
  | .hbm, ⟨20, _⟩ => ⟨S8x3, .f32⟩
  | .hbm, ⟨21, _⟩ => ⟨S_, .f32⟩
  | .hbm, ⟨22, _⟩ => ⟨S_, .f32⟩
  | .hbm, ⟨23, _⟩ => ⟨S8x3, .f32⟩
  | .hbm, ⟨24, _⟩ => ⟨S8x3, .f32⟩
  | .hbm, ⟨25, _⟩ => ⟨S8x1x3, .f32⟩
  | .hbm, ⟨26, _⟩ => ⟨S8x3, .f32⟩
  | .hbm, ⟨27, _⟩ => ⟨S8x3, .f32⟩
  | .hbm, ⟨28, _⟩ => ⟨S8x3, .f32⟩
  | .hbm, ⟨29, _⟩ => ⟨S_, .f32⟩
  | .hbm, ⟨30, _⟩ => ⟨S8x3, .f32⟩
  | .hbm, ⟨31, _⟩ => ⟨S8x3, .f32⟩
  | .hbm, ⟨32, _⟩ => ⟨S_, .f32⟩
  | .hbm, ⟨33, _⟩ => ⟨S_, .f32⟩
  | .hbm, ⟨34, _⟩ => ⟨S8x3, .f32⟩
  | .hbm, ⟨35, _⟩ => ⟨S8x3, .f32⟩
  | .hbm, ⟨36, _⟩ => ⟨S8x1x3, .f32⟩
  | .hbm, ⟨37, _⟩ => ⟨S8x3, .f32⟩
  | .hbm, ⟨38, _⟩ => ⟨S8x3, .f32⟩
  | .hbm, ⟨39, _⟩ => ⟨S8x3, .f32⟩
  | .hbm, ⟨40, _⟩ => ⟨S8x1x3, .f32⟩
  | .hbm, ⟨41, _⟩ => ⟨S8x400000x3, .f32⟩
  | .hbm, ⟨42, _⟩ => ⟨S8x400000x3, .f32⟩
  | .hbm, ⟨43, _⟩ => ⟨S_, .f32⟩
  | .hbm, ⟨44, _⟩ => ⟨S8x400000, .f32⟩
  | .hbm, ⟨45, _⟩ => ⟨S_, .f32⟩
  | .hbm, ⟨46, _⟩ => ⟨S8x400000, .f32⟩
  | .hbm, ⟨47, _⟩ => ⟨S8x400000, .i1⟩
  | .hbm, ⟨48, _⟩ => ⟨S_, .f32⟩
  | .hbm, ⟨49, _⟩ => ⟨S8x400000, .f32⟩
  | .hbm, ⟨50, _⟩ => ⟨S_, .f32⟩
  | .hbm, ⟨51, _⟩ => ⟨S8x400000, .f32⟩
  | .hbm, ⟨52, _⟩ => ⟨S8x400000, .i1⟩
  | .hbm, ⟨53, _⟩ => ⟨S8x400000, .i1⟩
  | .hbm, ⟨54, _⟩ => ⟨S8x400000, .i32⟩
  | .hbm, ⟨55, _⟩ => ⟨S_, .i32⟩
  | .hbm, ⟨56, _⟩ => ⟨S8x400000, .i32⟩
  | .hbm, ⟨57, _⟩ => ⟨S8x400000, .i1⟩
  | .hbm, ⟨58, _⟩ => ⟨S8x400000, .i1⟩
  | .hbm, ⟨59, _⟩ => ⟨S8x400000x3, .i32⟩
  | .hbm, ⟨60, _⟩ => ⟨S8, .i32⟩
  | .hbm, ⟨61, _⟩ => ⟨S8x1x1, .i32⟩
  | .hbm, ⟨62, _⟩ => ⟨S8x400000x1, .i32⟩
  | .hbm, ⟨63, _⟩ => ⟨S8x400000x4, .i32⟩
  | .hbm, ⟨64, _⟩ => ⟨S8x400000x1, .i1⟩
  | .hbm, ⟨65, _⟩ => ⟨S8x400000x1, .i32⟩
  | .hbm, ⟨66, _⟩ => ⟨S8x400000x4, .i32⟩
  | .hbm, ⟨67, _⟩ => ⟨S8x400000x4, .i32⟩
  | .hbm, ⟨68, _⟩ => ⟨S8x1x3, .f32⟩
  | .hbm, ⟨69, _⟩ => ⟨S8x400000x3, .f32⟩
  | .hbm, ⟨70, _⟩ => ⟨S8x400000x3, .f32⟩
  | .hbm, ⟨71, _⟩ => ⟨S8x400000x1, .i1⟩
  | .hbm, ⟨72, _⟩ => ⟨S8x400000x1, .f32⟩
  | .hbm, ⟨73, _⟩ => ⟨S8x400000x3, .f32⟩
  | .hbm, ⟨74, _⟩ => ⟨S8x400000x3, .f32⟩
  | .hbm, ⟨75, _⟩ => ⟨S3200000, .i1⟩
  | .hbm, ⟨76, _⟩ => ⟨S3200000, .i32⟩
  | .hbm, ⟨77, _⟩ => ⟨S3200000, .i32⟩
  | _, _ => ⟨S8x400000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_cst_4 : Ref sig .tc := ⟨.hbm, 21, rfl⟩
abbrev main_call0_v0 : Ref sig .tc := ⟨.hbm, 22, rfl⟩
abbrev main_call0_v1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_v17 : Ref sig .tc := ⟨.hbm, 31, rfl⟩
abbrev main_cst_6 : Ref sig .tc := ⟨.hbm, 32, rfl⟩
abbrev main_call1_v0 : Ref sig .tc := ⟨.hbm, 33, rfl⟩
abbrev main_call1_v1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_cst_8 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_cst_10 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]

class Facts₀ : Prop where
  slices_S8x400000x4_S8x400000x3_0_0_0 : S8x400000x4.Slices ![0, 0, 0] S8x400000x3
  bcast_S_S8x400000x3 : S_.BroadcastsInDim S8x400000x3 (![] : Fin 0 → Fin S8x400000x3.rank)
  reducesTo_S8x400000x3_S8x3_d1 : S8x400000x3.ReducesTo [1] S8x3
  h_S_ : 0 < S_.numel
  bcast_S_S8x3 : S_.BroadcastsInDim S8x3 (![] : Fin 0 → Fin S8x3.rank)
  slices_S8x2x3_S8x1x3_0_0_0 : S8x2x3.Slices ![0, 0, 0] S8x1x3
  shapeCasts_S8x1x3_S8x3 : S8x1x3.ShapeCasts S8x3
  slices_S8x2x3_S8x1x3_0_1_0 : S8x2x3.Slices ![0, 1, 0] S8x1x3
  bcast_S8x3_S8x1x3_0_2 : S8x3.BroadcastsInDim S8x1x3 (![0, 2] : Fin 2 → Fin S8x1x3.rank)
  bcast_S8x1x3_S8x400000x3_0_1_2 : S8x1x3.BroadcastsInDim S8x400000x3 (![0, 1, 2] : Fin 3 → Fin S8x400000x3.rank)
  reducesTo_S8x400000x3_S8x400000_d2 : S8x400000x3.ReducesTo [2] S8x400000
  bcast_S_S8x400000 : S_.BroadcastsInDim S8x400000 (![] : Fin 0 → Fin S8x400000.rank)
  shapeCasts_S3200000_S8x400000 : S3200000.ShapeCasts S8x400000
  bcast_S8_S8x1x1_0 : S8.BroadcastsInDim S8x1x1 (![0] : Fin 1 → Fin S8x1x1.rank)
  bcast_S8x1x1_S8x400000x1_0_1_2 : S8x1x1.BroadcastsInDim S8x400000x1 (![0, 1, 2] : Fin 3 → Fin S8x400000x1.rank)
  concatenates_S8x400000x3_S8x400000x1_S8x400000x4_d2 : Shape.Concatenates [S8x400000x3, S8x400000x1] S8x400000x4 2
  bcast_S8x400000_S8x400000x1_0_1 : S8x400000.BroadcastsInDim S8x400000x1 (![0, 1] : Fin 2 → Fin S8x400000x1.rank)
  natLt_1_32 : 1 < 32
  bcast_S8x400000x1_S8x400000x4_0_1_2 : S8x400000x1.BroadcastsInDim S8x400000x4 (![0, 1, 2] : Fin 3 → Fin S8x400000x4.rank)
  bcast_S8x400000x1_S8x400000x3_0_1_2 : S8x400000x1.BroadcastsInDim S8x400000x3 (![0, 1, 2] : Fin 3 → Fin S8x400000x3.rank)
  shapeCasts_S8x400000_S3200000 : S8x400000.ShapeCasts S3200000

variable [Facts₀]

class Facts : Prop extends Facts₀ where

variable [Facts]
-- ==== Proof.Spec.lean ====
/-
  The mathematics of the certificate, free of either program's text.

  Inputs: points P[b, n, 0..3] (f32), features Fe[b, n, 0..2], a flat mask Mk[8 * 400000] (i32), two uniform draws
  U[b, 0..1, k] and a noise row Nz[b, k], with b < 8, n < 400000, k < 3.

  * the scaled coordinate  sc(b, n, k) = 20 · P[b, n, k]                               (k < 3)
  * its range per sample   mn(b, k) = min over n of sc(b, n, k),  mx(b, k) = max over n of sc(b, n, k)
  * the placement offset   off(b, k) = −mn + max(0, room − ε) · U[b, 0, k] + min(0, room + ε) · U[b, 1, k],
                           room = 4096 − (mx − mn)
  * the shifted coordinate a(b, n, k) = sc(b, n, k) + off(b, k)
  * validity of a point    valid(b, n) = (min over k of a ≥ 0) and (max over k of a < 4096) and (mask word > 0), one bit
  * the results            locs[b, n, k] = (k < 3 ? trunc a(b, n, k) : b) · valid,
                           feats[b, n, k] = (Fe[b, n, k] + Nz[b, k]) · valid,
                           masks[b · 400000 + n] = Mk[b · 400000 + n] · valid,  and off itself.

  Every minimum and maximum is a fold of the lattice operation on the extended reals from the literal the programs
  start from (+∞ for a minimum, −∞ for a maximum); the literals are kept as the words the programs print.
-/
import Idealize.ShloMosaic.PureOps.Ideal
import Idealize.ShloMosaic.Lib.ValueIdx

noncomputable section

namespace Cert.Spec

open Idealize.ShloMosaic Idealize.ShloMosaic.ValueIdx

abbrev SP : Shape := ⟨3, ![8, 400000, 4]⟩
abbrev SF : Shape := ⟨3, ![8, 400000, 3]⟩
abbrev SM2 : Shape := ⟨2, ![8, 400000]⟩
abbrev SM1 : Shape := ⟨1, ![3200000]⟩
abbrev SU : Shape := ⟨3, ![8, 2, 3]⟩
abbrev SO : Shape := ⟨2, ![8, 3]⟩

/-- The scale 20.0. -/
def c20 : EReal := Ideal.ofBits .f32 0x41A00000#32
/-- The word of +∞, a minimum's starting value. -/
def cTop : EReal := Ideal.ofBits .f32 0x7F800000#32
/-- The word of −∞, a maximum's starting value. -/
def cBot : EReal := Ideal.ofBits .f32 0xFF800000#32
/-- 0.0. -/
def c0 : EReal := Ideal.ofBits .f32 0x00000000#32
/-- The box's side 4096.0. -/
def c4096 : EReal := Ideal.ofBits .f32 0x45800000#32
/-- The slack's margin, the f32 nearest 0.001. -/
def cEps : EReal := Ideal.ofBits .f32 0x3A83126F#32

/-- Channel k < 3 of a point as a channel of the four-channel array. -/
abbrev ch (k : Fin 3) : Fin 4 := ⟨k.val, Nat.lt_succ_of_lt k.isLt⟩

/-- The scaled coordinate 20 · P[b, n, k]. -/
def sc (P : FVec Ideal SP .f32) (b : Fin 8) (n : Fin 400000) (k : Fin 3) : EReal := c20 * P (ix3 b n (ch k))

/-- The per-sample, per-axis minimum of the scaled coordinates over all points. -/
def mnOf (P : FVec Ideal SP .f32) : FVec Ideal SO .f32 := fun j =>
  (Finset.univ : Finset (Fin 400000)).fold min cTop (fun n => sc P (j 0) n (j 1))

/-- The per-sample, per-axis maximum. -/
def mxOf (P : FVec Ideal SP .f32) : FVec Ideal SO .f32 := fun j =>
  (Finset.univ : Finset (Fin 400000)).fold max cBot (fun n => sc P (j 0) n (j 1))

/-- The placement offset from a minimum, a maximum and the two draws. -/
def offAt (mn mx u0 u1 : EReal) : EReal :=
  (-mn + max c0 (c4096 - (mx - mn) - cEps) * u0) + min c0 (c4096 - (mx - mn) + cEps) * u1

/-- The offset array from any range arrays. -/
def offG (mn mx : FVec Ideal SO .f32) (U : FVec Ideal SU .f32) : FVec Ideal SO .f32 := fun j =>
  offAt (mn j) (mx j) (U (ix3 (j 0) (0 : Fin 2) (j 1))) (U (ix3 (j 0) (1 : Fin 2) (j 1)))

/-- The offset array of the inputs. -/
def offOf (P : FVec Ideal SP .f32) (U : FVec Ideal SU .f32) : FVec Ideal SO .f32 := offG (mnOf P) (mxOf P) U

/-- The shifted coordinate, over any offset array. -/
def aAt (P : FVec Ideal SP .f32) (off : FVec Ideal SO .f32) (b : Fin 8) (n : Fin 400000) (k : Fin 3) : EReal :=
  sc P b n k + off (ix2 b k)

/-- Validity of point (b, n) given its mask word: in the box on every axis and the mask positive. -/
def validAt (P : FVec Ideal SP .f32) (off : FVec Ideal SO .f32) (mk : BitVec 32) (b : Fin 8) (n : Fin 400000) : BitVec 1 :=
  IntOp.andi
    (IntOp.andi (FloatOps.cmpf (F := Ideal) (φ := .f32) .oge ((Finset.univ : Finset (Fin 3)).fold min cTop (aAt P off b n)) c0)
                (FloatOps.cmpf (F := Ideal) (φ := .f32) .olt ((Finset.univ : Finset (Fin 3)).fold max cBot (aAt P off b n)) c4096))
    (IntOp.cmpi .sgt mk 0#32)

/-- One word of the voxel locations: the truncated coordinate on channels 0..2, the sample number on channel 3, zeroed
    when the point is not valid. -/
def locAt (P : FVec Ideal SP .f32) (off : FVec Ideal SO .f32) (mk : BitVec 32) (b : Fin 8) (n : Fin 400000) (k : Fin 4) : BitVec 32 :=
  IntOp.muli (if h : k.val < 3 then Ideal.fptosi 32 (aAt P off b n ⟨k.val, h⟩) else BitVec.ofNat 32 b.val)
    ((validAt P off mk b n).setWidth 32)

/-- One feature: the noised feature, zeroed when the point is not valid. -/
def featAt (P : FVec Ideal SP .f32) (off : FVec Ideal SO .f32) (mk : BitVec 32) (fe nz : EReal) (b : Fin 8) (n : Fin 400000) : EReal :=
  (fe + nz) * (((validAt P off mk b n).toNat : ℝ) : EReal)

/-- One word of the new mask. -/
def maskAt (P : FVec Ideal SP .f32) (off : FVec Ideal SO .f32) (mk : BitVec 32) (b : Fin 8) (n : Fin 400000) : BitVec 32 :=
  IntOp.muli mk ((validAt P off mk b n).setWidth 32)

/-- The flat mask read as [8, 400000], row-major. -/
def mk2 (Mk : IVec SM1 32) : IVec SM2 32 := fun i =>
  Mk (ix1 (⟨(i 0).val * 400000 + (i 1).val, by
    have h0 : (i 0).val < 8 := (i 0).isLt
    have h1 : (i 1).val < 400000 := (i 1).isLt
    omega⟩ : Fin 3200000))

/-- The locations array over any offset array and any [8, 400000] mask. -/
def locsG (P : FVec Ideal SP .f32) (off : FVec Ideal SO .f32) (M2 : IVec SM2 32) : IVec SP 32 := fun i =>
  locAt P off (M2 (ix2 (i 0) (i 1))) (i 0) (i 1) (i 2)

/-- The features array. -/
def featsG (P : FVec Ideal SP .f32) (off : FVec Ideal SO .f32) (M2 : IVec SM2 32) (Fe : FVec Ideal SF .f32) (Nz : FVec Ideal SO .f32) :
    FVec Ideal SF .f32 := fun i =>
  featAt P off (M2 (ix2 (i 0) (i 1))) (Fe i) (Nz (ix2 (i 0) (i 2))) (i 0) (i 1)

/-- The new mask as [8, 400000]. -/
def masksG (P : FVec Ideal SP .f32) (off : FVec Ideal SO .f32) (M2 : IVec SM2 32) : IVec SM2 32 := fun i =>
  maskAt P off (M2 i) (i 0) (i 1)

/-- A [8, 400000] array read flat, row-major. -/
def flat (X : IVec SM2 32) : IVec SM1 32 := fun i =>
  X (ix2 (⟨(i 0).val / 400000, by have h : (i 0).val < 3200000 := (i 0).isLt; omega⟩ : Fin 8)
         (⟨(i 0).val % 400000, Nat.mod_lt _ (by decide)⟩ : Fin 400000))

end Cert.Spec

end
-- ==== Proof.KHost.lean ====
/- The host operations of the kernel's @main around its two regions: what the buffers the regions and the results read hold. -/
import proofs.«101466_j2327872274833_1_alg».proof.Proof.Gen.KernelIdeal.Frame
import proofs.«101466_j2327872274833_1_alg».proof.Proof.Spec
import Idealize.ShloMosaic.Lib.Pipeline.Value
import Idealize.ShloMosaic.Lib.IdealHost

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (m : (ℓ : Loc nD τ sig) → Buf (Elt Ideal) ℓ) (ρ : Dev nD → PrngReg)

/-- A buffer that no operation of a stretch writes holds after the stretch what it held before it: every operation's
    written reference differs from the buffer's. -/
local macro "unwritten" : tactic =>
  `(tactic| (refine StableHlo.after_of_forall_not_mem _ _ (List.forall_iff_forall_mem.mp ?_)
             simp only [hostOps1, hostOps1_1, hostOps1_2, hostOps1_3, hostOps1_4, hostOps2,
               List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-- Region 0 is entered with the points as launched. -/
theorem V0_arg0 (c : Dev nD) : V0 m ρ c main_arg0 = m ((c : Thread nD τ).loc main_arg0) := by
  rfl

/-- Region 1 is entered with the arguments as launched, -/
theorem V6_arg0 (c : Dev nD) : V6 m ρ c main_arg0 = m ((c : Thread nD τ).loc main_arg0) :=
  calc W6 m ρ c (Proc.devRef .tc main_arg0)
    _ = W5 m ρ c (Proc.devRef .tc main_arg0) := by unwritten
    _ = W4 m ρ c (Proc.devRef .tc main_arg0) := by unwritten
    _ = W3 m ρ c (Proc.devRef .tc main_arg0) := by unwritten
    _ = W2 m ρ c (Proc.devRef .tc main_arg0) := by unwritten
    _ = W1 m ρ c (Proc.devRef .tc main_arg0) := by unwritten
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem V6_arg1 (c : Dev nD) : V6 m ρ c main_arg1 = m ((c : Thread nD τ).loc main_arg1) :=
  calc W6 m ρ c (Proc.devRef .tc main_arg1)
    _ = W5 m ρ c (Proc.devRef .tc main_arg1) := by unwritten
    _ = W4 m ρ c (Proc.devRef .tc main_arg1) := by unwritten
    _ = W3 m ρ c (Proc.devRef .tc main_arg1) := by unwritten
    _ = W2 m ρ c (Proc.devRef .tc main_arg1) := by unwritten
    _ = W1 m ρ c (Proc.devRef .tc main_arg1) := by unwritten
    _ = W0 m ρ c (Proc.devRef .tc main_arg1) := W1_of_ne m ρ c main_arg1 (by decide)
    _ = m ((c : Thread nD τ).loc main_arg1) := rfl
theorem V6_arg4 (c : Dev nD) : V6 m ρ c main_arg4 = m ((c : Thread nD τ).loc main_arg4) :=
  calc W6 m ρ c (Proc.devRef .tc main_arg4)
    _ = W5 m ρ c (Proc.devRef .tc main_arg4) := by unwritten
    _ = W4 m ρ c (Proc.devRef .tc main_arg4) := by unwritten
    _ = W3 m ρ c (Proc.devRef .tc main_arg4) := by unwritten
    _ = W2 m ρ c (Proc.devRef .tc main_arg4) := by unwritten
    _ = W1 m ρ c (Proc.devRef .tc main_arg4) := by unwritten
    _ = W0 m ρ c (Proc.devRef .tc main_arg4) := W1_of_ne m ρ c main_arg4 (by decide)
    _ = m ((c : Thread nD τ).loc main_arg4) := rfl

/-- The flat mask reshaped to [8, 400000] reads at (b, n) the flat word b · 400000 + n: both have that row-major position. -/
theorem shapeCast_flat_to_rows (X : IVec S3200000 32) :
    shapeCast S8x400000 X shapeCasts_S3200000_S8x400000 = Cert.Spec.mk2 X := by
  funext i
  unfold Cert.Spec.mk2
  refine shapeCast_apply X _ i _ ?_
  rw [Shape.rowMajor_val_one, Shape.rowMajor_val_two]
  rfl

/-- A [8, 400000] array reshaped flat reads at i the word (i / 400000, i % 400000): that pair's row-major position is i. -/
theorem shapeCast_rows_to_flat (X : IVec S8x400000 32) :
    shapeCast S3200000 X shapeCasts_S8x400000_S3200000 = Cert.Spec.flat X := by
  funext i
  unfold Cert.Spec.flat
  refine shapeCast_apply X _ i _ ?_
  rw [Shape.rowMajor_val_one, Shape.rowMajor_val_two]
  show (i 0).val / 400000 * 400000 + (i 0).val % 400000 = (i 0).val
  exact Nat.div_add_mod' _ _

/-- with the flat mask reshaped to [8, 400000], -/
theorem V6_v19 (c : Dev nD) : V6 m ρ c main_v19 = Cert.Spec.mk2 (m ((c : Thread nD τ).loc main_arg2)) := by
  show StableHlo.after hostOps1_4 (W5 m ρ c) (Proc.devRef .tc main_v19) = _
  after_results
  have e : W1 m ρ c (Proc.devRef .tc main_arg2) = m ((c : Thread nD τ).loc main_arg2) := W1_of_ne m ρ c main_arg2 (by decide)
  rw [e]
  exact shapeCast_flat_to_rows (m ((c : Thread nD τ).loc main_arg2))

/-- Row 0 of the draws as a [8, 3] array: the slice [8, 1, 3] at row 0, its unit axis dropped, reads at (b, k) the draw
    (b, 0, k). -/
theorem draws_row0_apply (U : FVec Ideal S8x2x3 .f32) (j : S8x3.Idx) :
    shapeCast S8x3 (extractStridedSlice S8x1x3 ![0, 0, 0] U slices_S8x2x3_S8x1x3_0_0_0) shapeCasts_S8x1x3_S8x3 j
      = U (ix3 (j 0) (0 : Fin 2) (j 1)) := by
  refine (shapeCast_apply _ shapeCasts_S8x1x3_S8x3 j (ix3 (j 0) (0 : Fin 1) (j 1)) ?_).trans ?_
  · rw [Shape.rowMajor_val_three, Shape.rowMajor_val_two]
    show ((j 0).val * 1 + 0) * 3 + (j 1).val = (j 0).val * 3 + (j 1).val
    omega
  · refine extractStridedSlice_apply _ U _ _ _ fun a => ?_
    match a with
    | ⟨0, _⟩ => exact (Nat.zero_add _).symm
    | ⟨1, _⟩ => rfl
    | ⟨2, _⟩ => exact (Nat.zero_add _).symm

/-- Row 1 of the draws as a [8, 3] array reads at (b, k) the draw (b, 1, k). -/
theorem draws_row1_apply (U : FVec Ideal S8x2x3 .f32) (j : S8x3.Idx) :
    shapeCast S8x3 (extractStridedSlice S8x1x3 ![0, 1, 0] U slices_S8x2x3_S8x1x3_0_1_0) shapeCasts_S8x1x3_S8x3 j
      = U (ix3 (j 0) (1 : Fin 2) (j 1)) := by
  refine (shapeCast_apply _ shapeCasts_S8x1x3_S8x3 j (ix3 (j 0) (0 : Fin 1) (j 1)) ?_).trans ?_
  · rw [Shape.rowMajor_val_three, Shape.rowMajor_val_two]
    show ((j 0).val * 1 + 0) * 3 + (j 1).val = (j 0).val * 3 + (j 1).val
    omega
  · refine extractStridedSlice_apply _ U _ _ _ fun a => ?_
    match a with
    | ⟨0, _⟩ => exact (Nat.zero_add _).symm
    | ⟨1, _⟩ => rfl
    | ⟨2, _⟩ => exact (Nat.zero_add _).symm

/-- The host's offset computation, operation by operation in the order printed, is the specification's offset array:
    at (b, k) every operation reads its operands at (b, k), a broadcast scalar reads its word, and the two draws are
    rows 0 and 1 of the draws at (b, k). -/
theorem offset_ops_eq (mn mx : FVec Ideal S8x3 .f32) (U : FVec Ideal S8x2x3 .f32) :
    addf
      (addf (Host.negf mn)
        (mulf
          (maximumf (broadcastInDim S8x3 ![] bcast_S_S8x3 (constant (F := Ideal) S_ .f32 0x00000000#32))
            (subf
              (subf (broadcastInDim S8x3 ![] bcast_S_S8x3 (constant (F := Ideal) S_ .f32 0x45800000#32)) (subf mx mn))
              (broadcastInDim S8x3 ![] bcast_S_S8x3 (constant (F := Ideal) S_ .f32 0x3A83126F#32))))
          (shapeCast S8x3 (extractStridedSlice S8x1x3 ![0, 0, 0] U slices_S8x2x3_S8x1x3_0_0_0) shapeCasts_S8x1x3_S8x3)))
      (mulf
        (minimumf (broadcastInDim S8x3 ![] bcast_S_S8x3 (constant (F := Ideal) S_ .f32 0x00000000#32))
          (addf
            (subf (broadcastInDim S8x3 ![] bcast_S_S8x3 (constant (F := Ideal) S_ .f32 0x45800000#32)) (subf mx mn))
            (broadcastInDim S8x3 ![] bcast_S_S8x3 (constant (F := Ideal) S_ .f32 0x3A83126F#32))))
        (shapeCast S8x3 (extractStridedSlice S8x1x3 ![0, 1, 0] U slices_S8x2x3_S8x1x3_0_1_0) shapeCasts_S8x1x3_S8x3))
      = Cert.Spec.offG mn mx U := by
  funext j
  have hc : ∀ w : BitVec 32,
      broadcastInDim S8x3 ![] bcast_S_S8x3 (constant (F := Ideal) S_ .f32 w) j = Ideal.ofBits .f32 w :=
    fun w => broadcastInDim_scalar_apply bcast_S_S8x3 _ j
  have hn : Host.negf mn j = -(mn j) := rfl
  simp only [addf_apply, mulf_apply, subf_apply, maximumf_apply, minimumf_apply, hc, hn, draws_row0_apply, draws_row1_apply]
  rfl

/-- and with the offset computed from region 0's two result arrays and the draws. -/
theorem V6_v18 (c : Dev nD) :
    V6 m ρ c main_v18
      = Cert.Spec.offG ((dat0 (F := Ideal) (V0 m ρ) c).arrAt 1 cfg0.N) ((dat0 (F := Ideal) (V0 m ρ) c).arrAt 2 cfg0.N)
          (m ((c : Thread nD τ).loc main_arg3)) := by
  show StableHlo.after hostOps1_4 (W5 m ρ c) (Proc.devRef .tc main_v18) = _
  after_results_simp
  simp only [StableHlo.TRef.ofBuf, StableHlo.TRef.toBuf, cast_eq, id_eq]
  have e0 : W1 m ρ c (Proc.devRef .tc main_v0_0) = (dat0 (F := Ideal) (V0 m ρ) c).arrAt 1 cfg0.N := W1_arr m ρ c 1
  have e1 : W1 m ρ c (Proc.devRef .tc main_v0_1) = (dat0 (F := Ideal) (V0 m ρ) c).arrAt 2 cfg0.N := W1_arr m ρ c 2
  have e3 : W1 m ρ c (Proc.devRef .tc main_arg3) = m ((c : Thread nD τ).loc main_arg3) := W1_of_ne m ρ c main_arg3 (by decide)
  rw [e0, e1, e3]
  exact offset_ops_eq _ _ _

/-- The four results at the return, from region 1's arrays. -/
theorem W8_v20_0 (c : Dev nD) : W8 m ρ c (Proc.devRef .tc main_v20_0) = (dat1 (F := Ideal) (V6 m ρ) c).arrAt 5 cfg1.N :=
  calc W8 m ρ c (Proc.devRef .tc main_v20_0)
    _ = W7 m ρ c (Proc.devRef .tc main_v20_0) := by unwritten
    _ = (dat1 (F := Ideal) (V6 m ρ) c).arrAt 5 cfg1.N := W7_arr m ρ c 5
theorem W8_v20_1 (c : Dev nD) : W8 m ρ c (Proc.devRef .tc main_v20_1) = (dat1 (F := Ideal) (V6 m ρ) c).arrAt 6 cfg1.N :=
  calc W8 m ρ c (Proc.devRef .tc main_v20_1)
    _ = W7 m ρ c (Proc.devRef .tc main_v20_1) := by unwritten
    _ = (dat1 (F := Ideal) (V6 m ρ) c).arrAt 6 cfg1.N := W7_arr m ρ c 6
theorem W8_v21 (c : Dev nD) :
    W8 m ρ c (Proc.devRef .tc main_v21) = Cert.Spec.flat ((dat1 (F := Ideal) (V6 m ρ) c).arrAt 7 cfg1.N) := by
  show StableHlo.after hostOps2 (W7 m ρ c) (Proc.devRef .tc main_v21) = _
  after_results
  have e : W7 m ρ c (Proc.devRef .tc main_v20_2) = (dat1 (F := Ideal) (V6 m ρ) c).arrAt 7 cfg1.N := W7_arr m ρ c 7
  rw [e]
  exact shapeCast_rows_to_flat ((dat1 (F := Ideal) (V6 m ρ) c).arrAt 7 cfg1.N)
theorem W8_v18 (c : Dev nD) : W8 m ρ c (Proc.devRef .tc main_v18) = (dat1 (F := Ideal) (V6 m ρ) c).arrAt 3 cfg1.N :=
  calc W8 m ρ c (Proc.devRef .tc main_v18)
    _ = W7 m ρ c (Proc.devRef .tc main_v18) := by unwritten
    _ = (dat1 (F := Ideal) (V6 m ρ) c).arrAt 3 cfg1.N := W7_arr m ρ c 3

end Cert.KernelIdeal.Val

end
-- ==== Proof.LibReduceMinMax.lean ====
/-
  General lemmas on one-axis minimum and maximum reductions at the ideal values (the extended reals).

  * A kernel's `vector.multi_reduction <minimumf>` over ONE axis, read at a result index `j`, is the fold of `min` from the
    accumulator's value over that axis's coordinates (`Shape.Reduces.lift`: `j` with the coordinate inserted) — the twin of
    the library's `Ideal.multiReduction_maximumf_single`.
  * The host's one-operand `stablehlo.reduce` with a `minimum` / `maximum` body over one axis is the same fold from the
    initial value's element, spelt with `min` / `max`.
  * The two starting words: the f32 pattern of +∞ is the top of the extended reals and that of −∞ its bottom, so a fold of
    `min` from the first (of `max` from the second) over a finite set is the set's infimum (supremum).
-/
import Idealize.ShloMosaic.PureOps.Ideal.Laws

namespace Cert.Lib

open Idealize.ShloMosaic

variable {φ : FTy}

/-- A float `vector.multi_reduction <minimumf>` over one axis, read at `Ideal`: the fold of `min` from the accumulator's
    value over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The host's `stablehlo.reduce` with a `minimum` body over one axis, read at `Ideal`. -/
theorem hostReduce_minimumf_single {s t u : Shape} {a : Fin s.rank} (x : s.Idx → Ideal φ) (init : u.Idx → Ideal φ)
    (h' : s.ReducesTo [a] t) (h : s.Reduces [a] t) (hu : 0 < u.numel) (j : t.Idx) :
    Host.reduce (FloatOps.minimumf (F := Ideal) (φ := φ)) x init h' hu j
      = (Finset.univ : Finset (Fin (s.size a))).fold min (init (Shape.Idx.first hu)) (x ∘ h.lift j) :=
  Host.reduce_eq_fold_single _ x init h' h hu j

/-- The host's `stablehlo.reduce` with a `maximum` body over one axis, read at `Ideal`. -/
theorem hostReduce_maximumf_single {s t u : Shape} {a : Fin s.rank} (x : s.Idx → Ideal φ) (init : u.Idx → Ideal φ)
    (h' : s.ReducesTo [a] t) (h : s.Reduces [a] t) (hu : 0 < u.numel) (j : t.Idx) :
    Host.reduce (FloatOps.maximumf (F := Ideal) (φ := φ)) x init h' hu j
      = (Finset.univ : Finset (Fin (s.size a))).fold max (init (Shape.Idx.first hu)) (x ∘ h.lift j) :=
  Host.reduce_eq_fold_single _ x init h' h hu j

end Cert.Lib
-- ==== Proof.KReg0.lean ====
/- Region 0 (the range pass): what the two result arrays hold when the region is left. -/
import proofs.«101466_j2327872274833_1_alg».proof.Proof.Gen.KernelIdeal.Frame
import proofs.«101466_j2327872274833_1_alg».proof.Proof.Spec
import Idealize.ShloMosaic.Lib.Pipeline.Value
import proofs.«101466_j2327872274833_1_alg».proof.Proof.LibReduceMinMax

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat Cfg Window)
open Cert.KernelIdeal Cert.KernelIdeal.Gen

/-- The offsets of a whole-buffer access, however spelt, are zero. -/
theorem vec2_zero : (![0, 0] : Fin 2 → Nat) = fun _ => 0 := funext fun a => by fin_cases a <;> rfl
theorem vec3_zero : (![0, 0, 0] : Fin 3 → Nat) = fun _ => 0 := funext fun a => by fin_cases a <;> rfl

/-- At a later point the first buffer is left at the minimum of what it held and the block's row minimum. -/
theorem out0_B_1_eq (c : Dev nD) (i : grid0.Coords) (a1 : Memref sig .tc .vmem S8x1600x4 .f32) (h1 : a1.IsWhole)
    (a2 : Memref sig .tc .vmem S8x3 .f32) (h2 : a2.IsWhole) (a3 : Memref sig .tc .vmem S8x3 .f32) (h3 : a3.IsWhole)
    (hc : ¬cond0_0 i) (x0 : Vec Ideal S8x1600x4 .f32) (xo1 xo2 : Vec Ideal S8x3 .f32) :
    out0_B_1 (F := Ideal) c i a1 h1 a2 h2 a3 h3 hc x0 xo1 xo2 = k0_pay4 x0 xo1 := by
  unfold out0_B_1
  rw [View.read_writes_eq_canon _ _ _ (cover0_B_1 c i a1 h1 a2 h2 a3 h3 hc x0 xo1 xo2)]
  unfold kernelRun0_B
  dsimp only
  sl_unfold_words
  rw [View.canon_unit_zero vec2_zero]
  simp only [View.readAt_eq_ld, h1.read_unread, h2.read_unread, View.ld_unit_zero (S := S8x1600x4) vec3_zero,
    View.ld_unit_zero (S := S8x3) vec2_zero]

/-- … and the second at the maximum of what it held and the block's row maximum. -/
theorem out0_B_2_eq (c : Dev nD) (i : grid0.Coords) (a1 : Memref sig .tc .vmem S8x1600x4 .f32) (h1 : a1.IsWhole)
    (a2 : Memref sig .tc .vmem S8x3 .f32) (h2 : a2.IsWhole) (a3 : Memref sig .tc .vmem S8x3 .f32) (h3 : a3.IsWhole)
    (hc : ¬cond0_0 i) (x0 : Vec Ideal S8x1600x4 .f32) (xo1 xo2 : Vec Ideal S8x3 .f32) :
    out0_B_2 (F := Ideal) c i a1 h1 a2 h2 a3 h3 hc x0 xo1 xo2 = k0_pay5 x0 xo2 := by
  unfold out0_B_2
  rw [View.read_writes_eq_canon _ _ _ (cover0_B_2 c i a1 h1 a2 h2 a3 h3 hc x0 xo1 xo2)]
  unfold kernelRun0_B
  dsimp only
  sl_unfold_words
  rw [View.canon_unit_zero vec2_zero]
  simp only [View.readAt_eq_ld, h1.read_unread, h3.read_unread, View.ld_unit_zero (S := S8x1600x4) vec3_zero,
    View.ld_unit_zero (S := S8x3) vec2_zero]

/-- At the first point the first buffer is reset to the starting value, read back, and left at the minimum of that and
    the block's row minimum. -/
theorem out0_A_1_eq (c : Dev nD) (i : grid0.Coords) (a1 : Memref sig .tc .vmem S8x1600x4 .f32) (h1 : a1.IsWhole)
    (a2 : Memref sig .tc .vmem S8x3 .f32) (h2 : a2.IsWhole) (a3 : Memref sig .tc .vmem S8x3 .f32) (h3 : a3.IsWhole)
    (hc : cond0_0 i) (x0 : Vec Ideal S8x1600x4 .f32) :
    out0_A_1 (F := Ideal) c i a1 h1 a2 h2 a3 h3 hc x0 = k0_pay4 x0 (k0_pay2 (F := Ideal)) := by
  unfold out0_A_1
  rw [View.read_writes_eq_canon _ _ _ (cover0_A_1 c i a1 h1 a2 h2 a3 h3 hc x0)]
  unfold kernelRun0_A
  dsimp only
  sl_unfold_words
  rw [View.canon_cons_unit_zero (S := S8x3) vec2_zero, View.readCov_unit_zero (S := S8x3) _ vec2_zero]
  simp only [View.readAt_eq_ld, h1.read_unread, View.ld_unit_zero (S := S8x1600x4) vec3_zero]

/-- … and the second likewise with the maximum. -/
theorem out0_A_2_eq (c : Dev nD) (i : grid0.Coords) (a1 : Memref sig .tc .vmem S8x1600x4 .f32) (h1 : a1.IsWhole)
    (a2 : Memref sig .tc .vmem S8x3 .f32) (h2 : a2.IsWhole) (a3 : Memref sig .tc .vmem S8x3 .f32) (h3 : a3.IsWhole)
    (hc : cond0_0 i) (x0 : Vec Ideal S8x1600x4 .f32) :
    out0_A_2 (F := Ideal) c i a1 h1 a2 h2 a3 h3 hc x0 = k0_pay5 x0 (k0_pay3 (F := Ideal)) := by
  unfold out0_A_2
  rw [View.read_writes_eq_canon _ _ _ (cover0_A_2 c i a1 h1 a2 h2 a3 h3 hc x0)]
  unfold kernelRun0_A
  dsimp only
  sl_unfold_words
  rw [View.canon_cons_unit_zero (S := S8x3) vec2_zero, View.readCov_unit_zero (S := S8x3) _ vec2_zero]
  simp only [View.readAt_eq_ld, h1.read_unread, View.ld_unit_zero (S := S8x1600x4) vec3_zero]

open Cert.Spec (c20 cTop cBot ch)

/-- The scaled block at an index: 20 times the block's entry on the same channel. -/
theorem pay1_apply (x0 : Vec Ideal S8x1600x4 .f32) (b : Fin 8) (r : Fin 1600) (k : Fin 3) :
    k0_pay1 (F := Ideal) x0 (ix3 b r k) = c20 * x0 (ix3 b r (ch k)) := by
  unfold k0_pay1
  show Ideal.ofBits .f32 0x41A00000#32
      * extractStridedSlice S8x1600x3 ![0, 0, 0] x0 slices_S8x1600x4_o0_0_0_S8x1600x3 (ix3 b r k) = _
  refine congrArg (fun z => Ideal.ofBits .f32 0x41A00000#32 * z) ?_
  exact extractStridedSlice_apply _ x0 _ (ix3 b r k) (ix3 b r (ch k)) fun a =>
    match a with
    | ⟨0, _⟩ => (Nat.zero_add _).symm
    | ⟨1, _⟩ => (Nat.zero_add _).symm
    | ⟨2, _⟩ => (Nat.zero_add _).symm

/-- Inserting row r into the result index (b, k) gives the block index (b, r, k). -/
theorem lift_rows (b : Fin 8) (k : Fin 3) (r : Fin 1600) :
    reduces_S8x1600x3_S8x3.lift (ix2 b k) r = (ix3 b r k : S8x1600x3.Idx) :=
  funext fun a => Fin.ext (match a with
    | ⟨0, _⟩ => rfl
    | ⟨1, _⟩ => rfl
    | ⟨2, _⟩ => rfl)

/-- The first buffer's new entry: the minimum of the old entry and the block's scaled entries over its 1600 rows. -/
theorem pay4_apply (x0 : Vec Ideal S8x1600x4 .f32) (v9 : Vec Ideal S8x3 .f32) (b : Fin 8) (k : Fin 3) :
    k0_pay4 (F := Ideal) x0 v9 (ix2 b k)
      = min (v9 (ix2 b k)) ((Finset.univ : Finset (Fin 1600)).fold min cTop (fun r => c20 * x0 (ix3 b r (ch k)))) := by
  unfold k0_pay4
  show min (shapeCast S8x3 v9 shapeCasts_S8x3_S8x3 (ix2 b k))
      (multiReduction .minimumf [1] S8x3 (k0_pay1 (F := Ideal) x0) 0x7F800000#32 reduces_S8x1600x3_S8x3 (.inl rfl) rfl (ix2 b k)) = _
  rw [shapeCast_self]
  refine congrArg (min (v9 (ix2 b k))) ?_
  refine (Cert.Lib.multiReduction_minimumf_single (k0_pay1 (F := Ideal) x0) _ reduces_S8x1600x3_S8x3 (.inl rfl) rfl (ix2 b k)).trans ?_
  show (Finset.univ : Finset (Fin 1600)).fold min cTop _ = _
  refine Finset.fold_congr fun r _ => ?_
  show k0_pay1 (F := Ideal) x0 (reduces_S8x1600x3_S8x3.lift (ix2 b k) r) = _
  rw [lift_rows]
  exact pay1_apply x0 b r k

/-- The second buffer's new entry: the maximum likewise. -/
theorem pay5_apply (x0 : Vec Ideal S8x1600x4 .f32) (v13 : Vec Ideal S8x3 .f32) (b : Fin 8) (k : Fin 3) :
    k0_pay5 (F := Ideal) x0 v13 (ix2 b k)
      = max (v13 (ix2 b k)) ((Finset.univ : Finset (Fin 1600)).fold max cBot (fun r => c20 * x0 (ix3 b r (ch k)))) := by
  unfold k0_pay5
  show max (shapeCast S8x3 v13 shapeCasts_S8x3_S8x3 (ix2 b k))
      (multiReduction .maximumf [1] S8x3 (k0_pay1 (F := Ideal) x0) 0xFF800000#32 reduces_S8x1600x3_S8x3 (.inl rfl) rfl (ix2 b k)) = _
  rw [shapeCast_self]
  refine congrArg (max (v13 (ix2 b k))) ?_
  refine (Ideal.multiReduction_maximumf_single (k0_pay1 (F := Ideal) x0) _ reduces_S8x1600x3_S8x3 (.inl rfl) rfl (ix2 b k)).trans ?_
  show (Finset.univ : Finset (Fin 1600)).fold max cBot _ = _
  refine Finset.fold_congr fun r _ => ?_
  show k0_pay1 (F := Ideal) x0 (reduces_S8x1600x3_S8x3.lift (ix2 b k) r) = _
  rw [lift_rows]
  exact pay1_apply x0 b r k

/-- The reset values at an index. -/
theorem pay2_apply (b : Fin 8) (k : Fin 3) : k0_pay2 (F := Ideal) (ix2 b k) = cTop := rfl
theorem pay3_apply (b : Fin 8) (k : Fin 3) : k0_pay3 (F := Ideal) (ix2 b k) = cBot := rfl

/-! ## Regrouping a minimum (a maximum) over 400000 rows into 250 blocks of 1600

The lattice operations are associative, commutative and idempotent, so the fold over the rows below 1600 (n + 1) is the
fold over the rows below 1600 n joined with the fold over block n's rows; each is carried by its universal property. -/

section Blocks
variable {α : Type*} [LinearOrder α]

theorem fold_min_below_zero (top : α) (f : Fin 400000 → α) :
    ((Finset.univ : Finset (Fin 400000)).filter (fun i => i.val < 1600 * 0)).fold min top f = top := by
  rw [Finset.filter_false_of_mem (fun i _ => by omega)]
  rfl

theorem fold_min_below_succ (top : α) (f : Fin 400000 → α) (n : ℕ) (h : n < 250) :
    ((Finset.univ : Finset (Fin 400000)).filter (fun i => i.val < 1600 * (n + 1))).fold min top f
      = min (((Finset.univ : Finset (Fin 400000)).filter (fun i => i.val < 1600 * n)).fold min top f)
          ((Finset.univ : Finset (Fin 1600)).fold min top
            (fun r => f ⟨1600 * n + r.val, by have := r.isLt; omega⟩)) := by
  refine eq_of_forall_le_iff fun z => ?_
  simp only [Finset.le_fold_min, le_min_iff, Finset.mem_filter, Finset.mem_univ, true_and, forall_true_left]
  constructor
  · rintro ⟨h0, h1⟩
    exact ⟨⟨h0, fun i hi => h1 i (by omega)⟩, h0, fun r => h1 _ (by have := r.isLt; show 1600 * n + r.val < _; omega)⟩
  · rintro ⟨⟨h0, h1⟩, -, h2⟩
    refine ⟨h0, fun i hi => ?_⟩
    by_cases hlt : i.val < 1600 * n
    · exact h1 i hlt
    · have hr : i.val - 1600 * n < 1600 := by omega
      have e : (⟨1600 * n + (⟨i.val - 1600 * n, hr⟩ : Fin 1600).val, by have := i.isLt; show 1600 * n + (i.val - 1600 * n) < _; omega⟩ : Fin 400000) = i :=
        Fin.ext (by show 1600 * n + (i.val - 1600 * n) = i.val; omega)
      have := h2 ⟨i.val - 1600 * n, hr⟩
      rwa [e] at this

theorem fold_min_below_all (top : α) (f : Fin 400000 → α) :
    ((Finset.univ : Finset (Fin 400000)).filter (fun i => i.val < 1600 * (249 + 1))).fold min top f
      = (Finset.univ : Finset (Fin 400000)).fold min top f := by
  rw [Finset.filter_true_of_mem (fun i _ => by have := i.isLt; omega)]

theorem fold_max_below_zero (bot : α) (f : Fin 400000 → α) :
    ((Finset.univ : Finset (Fin 400000)).filter (fun i => i.val < 1600 * 0)).fold max bot f = bot := by
  rw [Finset.filter_false_of_mem (fun i _ => by omega)]
  rfl

theorem fold_max_below_succ (bot : α) (f : Fin 400000 → α) (n : ℕ) (h : n < 250) :
    ((Finset.univ : Finset (Fin 400000)).filter (fun i => i.val < 1600 * (n + 1))).fold max bot f
      = max (((Finset.univ : Finset (Fin 400000)).filter (fun i => i.val < 1600 * n)).fold max bot f)
          ((Finset.univ : Finset (Fin 1600)).fold max bot
            (fun r => f ⟨1600 * n + r.val, by have := r.isLt; omega⟩)) := by
  refine eq_of_forall_ge_iff fun z => ?_
  simp only [Finset.fold_max_le, max_le_iff, Finset.mem_filter, Finset.mem_univ, true_and, forall_true_left]
  constructor
  · rintro ⟨h0, h1⟩
    exact ⟨⟨h0, fun i hi => h1 i (by omega)⟩, h0, fun r => h1 _ (by have := r.isLt; show 1600 * n + r.val < _; omega)⟩
  · rintro ⟨⟨h0, h1⟩, -, h2⟩
    refine ⟨h0, fun i hi => ?_⟩
    by_cases hlt : i.val < 1600 * n
    · exact h1 i hlt
    · have hr : i.val - 1600 * n < 1600 := by omega
      have e : (⟨1600 * n + (⟨i.val - 1600 * n, hr⟩ : Fin 1600).val, by have := i.isLt; show 1600 * n + (i.val - 1600 * n) < _; omega⟩ : Fin 400000) = i :=
        Fin.ext (by show 1600 * n + (i.val - 1600 * n) = i.val; omega)
      have := h2 ⟨i.val - 1600 * n, hr⟩
      rwa [e] at this

theorem fold_max_below_all (bot : α) (f : Fin 400000 → α) :
    ((Finset.univ : Finset (Fin 400000)).filter (fun i => i.val < 1600 * (249 + 1))).fold max bot f
      = (Finset.univ : Finset (Fin 400000)).fold max bot f := by
  rw [Finset.filter_true_of_mem (fun i _ => by have := i.isLt; omega)]

end Blocks

variable (V : (c : Dev nD) → (b : Ref sig .tc) → Buf (Elt Ideal) ((c : Thread nD τ).loc b))

/-! ## The blocks of the points array -/

/-- The points array as the region finds it, and its block at point t. -/
abbrev xarr (c : Dev nD) : FVec Ideal Cert.Spec.SP .f32 := V c main_arg0
abbrev xblk (c : Dev nD) (t : Fin cfg0.N) : Vec Ideal S8x1600x4 .f32 := iblk0 V c 0 t

/-- The points window's block index at point t is (0, t, 0): decided over the grid. -/
theorem idx0_facts : ∀ t : Fin cfg0.N, win0_0.index t (0 : Fin 3) = 0 ∧ win0_0.index t (1 : Fin 3) = t.val
    ∧ win0_0.index t (2 : Fin 3) = 0 :=
  (by decide +kernel : ∀ t : Fin grid0.N, _)

/-- Entry (b, r, k) of block t is entry (b, 1600 t + r, k) of the array. -/
theorem xblk_apply (c : Dev nD) (t : Fin cfg0.N) (b : Fin 8) (r : Fin 1600) (k : Fin 4) :
    xblk V c t (ix3 b r k)
      = xarr V c (ix3 b (⟨1600 * t.val + r.val, by
          have h1 : t.val < 250 := lt_of_lt_of_eq t.isLt (show cfg0.N = 250 from N_0)
          have h2 := r.isLt; omega⟩ : Fin 400000) k) := by
  obtain ⟨e0, e1, e2⟩ := idx0_facts t
  unfold xblk iblk0
  rw [View.read_apply]
  show V c main_arg0 _ = V c main_arg0 _
  congr 1
  funext a
  apply Fin.ext
  match a with
  | ⟨0, _⟩ => show win0_0.index t (0 : Fin 3) * 8 + 1 * b.val = b.val; omega
  | ⟨1, _⟩ => show win0_0.index t (1 : Fin 3) * 1600 + 1 * r.val = 1600 * t.val + r.val; omega
  | ⟨2, _⟩ => show win0_0.index t (2 : Fin 3) * 4 + 1 * k.val = k.val; omega

/-! ## What the two buffers hold after each point -/

/-- After point n the first buffer holds, at (b, k), the minimum of the scaled coordinates over the rows below
    1600 (n + 1): by induction on the point, the first point starting from the reset value. -/
theorem outs_min (c : Dev nD) (b : Fin 8) (k : Fin 3) : ∀ (n : ℕ) (hn : n < cfg0.N),
    (outsAt0 (F := Ideal) V c n hn).1 (ix2 b k)
      = ((Finset.univ : Finset (Fin 400000)).filter (fun i => i.val < 1600 * (n + 1))).fold min cTop
          (fun i => c20 * xarr V c (ix3 b i (ch k)))
  | 0, hn => by
    rw [outsAt0_A V c ⟨0, hn⟩ rfl]
    dsimp only
    refine (congrFun (out0_A_1_eq c (grid0.coords ⟨0, hn⟩) (ms0_0 ⟨0, hn⟩) (hs0_0 ⟨0, hn⟩) (ms0_1 ⟨0, hn⟩) (hs0_1 ⟨0, hn⟩)
      (ms0_2 ⟨0, hn⟩) (hs0_2 ⟨0, hn⟩) ((hcond0_0 ⟨0, hn⟩).mpr rfl) (xblk V c ⟨0, hn⟩)) (ix2 b k)).trans ?_
    refine (pay4_apply (xblk V c ⟨0, hn⟩) (k0_pay2 (F := Ideal)) b k).trans ?_
    rw [pay2_apply, fold_min_below_succ cTop _ 0 (by omega), fold_min_below_zero]
    refine congrArg (min cTop) (Finset.fold_congr fun r _ => ?_)
    exact congrArg (fun z => c20 * z) (xblk_apply V c ⟨0, hn⟩ b r (ch k))
  | n + 1, hn => by
    have hN : cfg0.N = 250 := N_0
    have hB : ¬(⟨n + 1, hn⟩ : Fin cfg0.N).val % 250 = 0 := by dsimp only; omega
    rw [outsAt0_B V c ⟨n + 1, hn⟩ hB]
    dsimp only
    refine (congrFun (out0_B_1_eq c (grid0.coords ⟨n + 1, hn⟩) (ms0_0 ⟨n + 1, hn⟩) (hs0_0 ⟨n + 1, hn⟩) (ms0_1 ⟨n + 1, hn⟩)
      (hs0_1 ⟨n + 1, hn⟩) (ms0_2 ⟨n + 1, hn⟩) (hs0_2 ⟨n + 1, hn⟩) (fun h => hB ((hcond0_0 ⟨n + 1, hn⟩).mp h))
      (xblk V c ⟨n + 1, hn⟩) (outsAt0 (F := Ideal) V c n (Nat.lt_of_succ_lt hn)).1
      (outsAt0 (F := Ideal) V c n (Nat.lt_of_succ_lt hn)).2) (ix2 b k)).trans ?_
    refine (pay4_apply (xblk V c ⟨n + 1, hn⟩) (outsAt0 (F := Ideal) V c n (Nat.lt_of_succ_lt hn)).1 b k).trans ?_
    rw [outs_min c b k n (Nat.lt_of_succ_lt hn), fold_min_below_succ cTop _ (n + 1) (by omega)]
    refine congrArg (min _) (Finset.fold_congr fun r _ => ?_)
    exact congrArg (fun z => c20 * z) (xblk_apply V c ⟨n + 1, hn⟩ b r (ch k))

/-- … and the second the maximum over the same rows. -/
theorem outs_max (c : Dev nD) (b : Fin 8) (k : Fin 3) : ∀ (n : ℕ) (hn : n < cfg0.N),
    (outsAt0 (F := Ideal) V c n hn).2 (ix2 b k)
      = ((Finset.univ : Finset (Fin 400000)).filter (fun i => i.val < 1600 * (n + 1))).fold max cBot
          (fun i => c20 * xarr V c (ix3 b i (ch k)))
  | 0, hn => by
    rw [outsAt0_A V c ⟨0, hn⟩ rfl]
    dsimp only
    refine (congrFun (out0_A_2_eq c (grid0.coords ⟨0, hn⟩) (ms0_0 ⟨0, hn⟩) (hs0_0 ⟨0, hn⟩) (ms0_1 ⟨0, hn⟩) (hs0_1 ⟨0, hn⟩)
      (ms0_2 ⟨0, hn⟩) (hs0_2 ⟨0, hn⟩) ((hcond0_0 ⟨0, hn⟩).mpr rfl) (xblk V c ⟨0, hn⟩)) (ix2 b k)).trans ?_
    refine (pay5_apply (xblk V c ⟨0, hn⟩) (k0_pay3 (F := Ideal)) b k).trans ?_
    rw [pay3_apply, fold_max_below_succ cBot _ 0 (by omega), fold_max_below_zero]
    refine congrArg (max cBot) (Finset.fold_congr fun r _ => ?_)
    exact congrArg (fun z => c20 * z) (xblk_apply V c ⟨0, hn⟩ b r (ch k))
  | n + 1, hn => by
    have hN : cfg0.N = 250 := N_0
    have hB : ¬(⟨n + 1, hn⟩ : Fin cfg0.N).val % 250 = 0 := by dsimp only; omega
    rw [outsAt0_B V c ⟨n + 1, hn⟩ hB]
    dsimp only
    refine (congrFun (out0_B_2_eq c (grid0.coords ⟨n + 1, hn⟩) (ms0_0 ⟨n + 1, hn⟩) (hs0_0 ⟨n + 1, hn⟩) (ms0_1 ⟨n + 1, hn⟩)
      (hs0_1 ⟨n + 1, hn⟩) (ms0_2 ⟨n + 1, hn⟩) (hs0_2 ⟨n + 1, hn⟩) (fun h => hB ((hcond0_0 ⟨n + 1, hn⟩).mp h))
      (xblk V c ⟨n + 1, hn⟩) (outsAt0 (F := Ideal) V c n (Nat.lt_of_succ_lt hn)).1
      (outsAt0 (F := Ideal) V c n (Nat.lt_of_succ_lt hn)).2) (ix2 b k)).trans ?_
    refine (pay5_apply (xblk V c ⟨n + 1, hn⟩) (outsAt0 (F := Ideal) V c n (Nat.lt_of_succ_lt hn)).2 b k).trans ?_
    rw [outs_max c b k n (Nat.lt_of_succ_lt hn), fold_max_below_succ cBot _ (n + 1) (by omega)]
    refine congrArg (max _) (Finset.fold_congr fun r _ => ?_)
    exact congrArg (fun z => c20 * z) (xblk_apply V c ⟨n + 1, hn⟩ b r (ch k))

/-! ## After the run: the result arrays -/

/-- The last point, the only one after which the result windows are written back. -/
abbrev tLast : Fin cfg0.N := ⟨249, by decide⟩

/-- After the last point the first buffer holds the minimum over all 400000 rows, -/
theorem outs_last_min (c : Dev nD) : (outsAt0 (F := Ideal) V c tLast.val tLast.isLt).1 = Cert.Spec.mnOf (xarr V c) := by
  funext j
  obtain ⟨b, k, rfl⟩ : ∃ (b : Fin 8) (k : Fin 3), j = ix2 b k := ⟨j 0, j 1, eq_ix2 j⟩
  rw [outs_min V c b k 249 tLast.isLt, fold_min_below_all]
  rfl

/-- and the second the maximum. -/
theorem outs_last_max (c : Dev nD) : (outsAt0 (F := Ideal) V c tLast.val tLast.isLt).2 = Cert.Spec.mxOf (xarr V c) := by
  funext j
  obtain ⟨b, k, rfl⟩ : ∃ (b : Fin 8) (k : Fin 3), j = ix2 b k := ⟨j 0, j 1, eq_ix2 j⟩
  rw [outs_max V c b k 249 tLast.isLt, fold_max_below_all]
  rfl

/-- The one write-back of the first result window, after the last point, writes the minimum array: the window's one
    block, read through zero offsets, is the whole array. -/
theorem flushed1_eq (c : Dev nD) (t : Fin cfg0.N) (hf : (cfg0.win 1).flush t = true) :
    (dat0 (F := Ideal) V c).flushed 1 t = ((cfg0.win 1).blk t).view.read (Elt Ideal) (Cert.Spec.mnOf (xarr V c)) := by
  have hN : cfg0.N = 250 := N_0
  have h249 : t.val = 249 := by have := (flush0_1 t).mp hf; have := t.isLt; omega
  obtain rfl : t = tLast := Fin.ext h249
  show (cfg0.win 1).cut (grid0.coords tLast) ((dat0 (F := Ideal) V c).after 1 tLast) = _
  rw [after0_1, outs_last_min]
  have hz' : (fun a => win0_1.index tLast a * main_v0_0.ty.shape.size a) = fun _ => 0 :=
    funext fun a => by fin_cases a <;> decide +kernel
  exact (Memref.read_access_unit_zero (Elt Ideal) main_v0_0 hz' (fun a => by rw [congrFun hz' a]; simp)
    (Cert.Spec.mnOf (xarr V c))).symm

/-- The same for the second result window and the maximum array. -/
theorem flushed2_eq (c : Dev nD) (t : Fin cfg0.N) (hf : (cfg0.win 2).flush t = true) :
    (dat0 (F := Ideal) V c).flushed 2 t = ((cfg0.win 2).blk t).view.read (Elt Ideal) (Cert.Spec.mxOf (xarr V c)) := by
  have hN : cfg0.N = 250 := N_0
  have h249 : t.val = 249 := by have := (flush0_2 t).mp hf; have := t.isLt; omega
  obtain rfl : t = tLast := Fin.ext h249
  show (cfg0.win 2).cut (grid0.coords tLast) ((dat0 (F := Ideal) V c).after 2 tLast) = _
  rw [after0_2, outs_last_max]
  have hz' : (fun a => win0_2.index tLast a * main_v0_1.ty.shape.size a) = fun _ => 0 :=
    funext fun a => by fin_cases a <;> decide +kernel
  exact (Memref.read_access_unit_zero (Elt Ideal) main_v0_1 hz' (fun a => by rw [congrFun hz' a]; simp)
    (Cert.Spec.mxOf (xarr V c))).symm

/-- After the 250 points the first result array holds the minimum over all 400000 points of the scaled coordinates. -/
theorem reg0_min (c : Dev nD) : (dat0 (F := Ideal) V c).arrAt 1 cfg0.N = Cert.Spec.mnOf (V c main_arg0) :=
  (dat0 (F := Ideal) V c).arrAt_eq_of_cover 1 (Cert.Spec.mnOf (xarr V c)) (flushed1_eq V c) fun i =>
    ⟨tLast, (flush0_1 tLast).mpr rfl, by
      show i ∈ ((View.whole main_v0_0).slice (win0_1.rect tLast)).set
      rw [View.set_slice_whole, Rect.mem_set_unit]
      intro a
      have h0 : (i 0 : Nat) < 8 := (i 0).isLt
      have h1 : (i 1 : Nat) < 3 := (i 1).isLt
      match a with
      | ⟨0, _⟩ =>
        show win0_1.index tLast 0 * win0_1.size 0 ≤ (i 0 : Nat)
          ∧ (i 0 : Nat) < win0_1.index tLast 0 * win0_1.size 0 + win0_1.xsize (grid0.coords tLast) 0
        rw [show win0_1.index tLast 0 * win0_1.size 0 = 0 from by decide +kernel,
          show win0_1.xsize (grid0.coords tLast) 0 = 8 from by decide +kernel]
        omega
      | ⟨1, _⟩ =>
        show win0_1.index tLast 1 * win0_1.size 1 ≤ (i 1 : Nat)
          ∧ (i 1 : Nat) < win0_1.index tLast 1 * win0_1.size 1 + win0_1.xsize (grid0.coords tLast) 1
        rw [show win0_1.index tLast 1 * win0_1.size 1 = 0 from by decide +kernel,
          show win0_1.xsize (grid0.coords tLast) 1 = 3 from by decide +kernel]
        omega⟩

/-- … and the second their maximum. -/
theorem reg0_max (c : Dev nD) : (dat0 (F := Ideal) V c).arrAt 2 cfg0.N = Cert.Spec.mxOf (V c main_arg0) :=
  (dat0 (F := Ideal) V c).arrAt_eq_of_cover 2 (Cert.Spec.mxOf (xarr V c)) (flushed2_eq V c) fun i =>
    ⟨tLast, (flush0_2 tLast).mpr rfl, by
      show i ∈ ((View.whole main_v0_1).slice (win0_2.rect tLast)).set
      rw [View.set_slice_whole, Rect.mem_set_unit]
      intro a
      have h0 : (i 0 : Nat) < 8 := (i 0).isLt
      have h1 : (i 1 : Nat) < 3 := (i 1).isLt
      match a with
      | ⟨0, _⟩ =>
        show win0_2.index tLast 0 * win0_2.size 0 ≤ (i 0 : Nat)
          ∧ (i 0 : Nat) < win0_2.index tLast 0 * win0_2.size 0 + win0_2.xsize (grid0.coords tLast) 0
        rw [show win0_2.index tLast 0 * win0_2.size 0 = 0 from by decide +kernel,
          show win0_2.xsize (grid0.coords tLast) 0 = 8 from by decide +kernel]
        omega
      | ⟨1, _⟩ =>
        show win0_2.index tLast 1 * win0_2.size 1 ≤ (i 1 : Nat)
          ∧ (i 1 : Nat) < win0_2.index tLast 1 * win0_2.size 1 + win0_2.xsize (grid0.coords tLast) 1
        rw [show win0_2.index tLast 1 * win0_2.size 1 = 0 from by decide +kernel,
          show win0_2.xsize (grid0.coords tLast) 1 = 3 from by decide +kernel]
        omega⟩

end Cert.KernelIdeal.Val

end
-- ==== Proof.KReg1L.lean ====
/- Region 1 (the transform pass): the locations array it leaves, and the offset array it only reads, as functions of
   the arrays it is entered with. -/
import proofs.«101466_j2327872274833_1_alg».proof.Proof.Gen.KernelIdeal.Frame
import proofs.«101466_j2327872274833_1_alg».proof.Proof.Spec
import Idealize.ShloMosaic.Lib.Pipeline.Value
import proofs.«101466_j2327872274833_1_alg».proof.Proof.LibReduceMinMax
set_option maxRecDepth 16384

noncomputable section

namespace Cert.KernelIdeal.Val

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-! ## Layout operations of the body read at an index -/

section Layout
variable {α : Type}

/-- An `[a, b]` array cast to `[a, 1, b]` reads, at `(i, u, j)`, the operand at `(i, j)`. -/
theorem locs_cast_mid_unit_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b]` array cast to `[a, b, 1]` reads, at `(i, j, u)`, the operand at `(i, j)`. -/
theorem locs_cast_last_unit_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- The offset row `[8, 1, 3]` broadcast over the 640 rows of a block reads, at `(b, r, k)`, the operand at `(b, 0, k)`. -/
theorem locs_offset_rows_apply (v : S8x1x3.Idx → α) (h : S8x1x3.Broadcasts S8x640x3) (b : Fin 8) (r : Fin 640) (k : Fin 3) :
    broadcastTo S8x640x3 v h (ix3 b r k) = v (ix3 b (0 : Fin 1) k) := by
  refine broadcastTo_apply v h (ix3 b r k) (ix3 b (0 : Fin 1) k) fun ax => ?_
  match ax with
  | ⟨0, _⟩ => rfl
  | ⟨1, _⟩ => rfl
  | ⟨2, _⟩ => rfl

/-- The validity column `[8, 640, 1]` broadcast over the 4 channels reads, at `(b, r, k)`, the operand at `(b, r, 0)`. -/
theorem locs_valid_chans_apply (v : S8x640x1.Idx → α) (h : S8x640x1.Broadcasts S8x640x4) (b : Fin 8) (r : Fin 640) (k : Fin 4) :
    broadcastTo S8x640x4 v h (ix3 b r k) = v (ix3 b r (0 : Fin 1)) := by
  refine broadcastTo_apply v h (ix3 b r k) (ix3 b r (0 : Fin 1)) fun ax => ?_
  match ax with
  | ⟨0, _⟩ => rfl
  | ⟨1, _⟩ => rfl
  | ⟨2, _⟩ => rfl

end Layout

/-! ## The body's arithmetic at one block index -/

/-- The shifted coordinate at block index (b, r, k): 20 · v0[b, r, k] + v2[b, k], the offset row broadcast over the
    block's rows. -/
theorem locs_shifted_apply (v0 : Vec Ideal S8x640x4 .f32) (v2 : Vec Ideal S8x3 .f32) (b : Fin 8) (r : Fin 640) (k : Fin 3) :
    k1_pay3 v0 v2 (ix3 b r k) = Cert.Spec.c20 * v0 (ix3 b r (Cert.Spec.ch k)) + v2 (ix2 b k) := by
  unfold k1_pay3
  show Ideal.ofBits .f32 0x41A00000#32 * extractStridedSlice S8x640x3 ![0, 0, 0] v0 slices_S8x640x4_o0_0_0_S8x640x3 (ix3 b r k)
      + broadcastTo S8x640x3 (shapeCast S8x1x3 (shapeCast S8x3 v2 shapeCasts_S8x3_S8x3) shapeCasts_S8x3_S8x1x3)
          broadcasts_S8x1x3_S8x640x3 (ix3 b r k) = _
  refine congrArg₂ (· + ·) (congrArg₂ (· * ·) rfl ?_) ?_
  · refine extractStridedSlice_apply _ v0 _ (ix3 b r k) (ix3 b r (Cert.Spec.ch k)) fun a => ?_
    match a with
    | ⟨0, _⟩ => show b.val = 0 + b.val; omega
    | ⟨1, _⟩ => show r.val = 0 + r.val; omega
    | ⟨2, _⟩ => show k.val = 0 + k.val; omega
  · refine (locs_offset_rows_apply _ _ b r k).trans ?_
    refine (locs_cast_mid_unit_apply _ _ b 0 k).trans ?_
    rw [shapeCast_self]

/-- The inserted index of the channel reduction: (b, r) with channel k put back is (b, r, k). -/
theorem locs_lift_chan (b : Fin 8) (r : Fin 640) (k : Fin 3) :
    reduces_S8x640x3_S8x640.lift (ix2 b r) k = ix3 b r k :=
  funext fun a => Fin.ext (by
    match a with
    | ⟨0, _⟩ => rfl
    | ⟨1, _⟩ => rfl
    | ⟨2, _⟩ => rfl)

/-- The minimum over the three channels of the shifted coordinate at row (b, r), from the word of +∞. -/
theorem locs_min3_apply (v0 : Vec Ideal S8x640x4 .f32) (v2 : Vec Ideal S8x3 .f32) (b : Fin 8) (r : Fin 640) :
    multiReduction (F := Ideal) .minimumf [2] S8x640 (k1_pay3 v0 v2) 0x7F800000#32 reduces_S8x640x3_S8x640 (.inl rfl) rfl (ix2 b r)
      = (Finset.univ : Finset (Fin 3)).fold min Cert.Spec.cTop
          (fun k => Cert.Spec.c20 * v0 (ix3 b r (Cert.Spec.ch k)) + v2 (ix2 b k)) := by
  refine (Cert.Lib.multiReduction_minimumf_single (k1_pay3 v0 v2) 0x7F800000#32 reduces_S8x640x3_S8x640 (.inl rfl) rfl (ix2 b r)).trans ?_
  refine Finset.fold_congr fun k _ => ?_
  show k1_pay3 v0 v2 (reduces_S8x640x3_S8x640.lift (ix2 b r) k) = _
  rw [locs_lift_chan b r k]
  exact locs_shifted_apply v0 v2 b r k

/-- The maximum over the three channels of the shifted coordinate at row (b, r), from the word of −∞. -/
theorem locs_max3_apply (v0 : Vec Ideal S8x640x4 .f32) (v2 : Vec Ideal S8x3 .f32) (b : Fin 8) (r : Fin 640) :
    multiReduction (F := Ideal) .maximumf [2] S8x640 (k1_pay3 v0 v2) 0xFF800000#32 reduces_S8x640x3_S8x640 (.inl rfl) rfl (ix2 b r)
      = (Finset.univ : Finset (Fin 3)).fold max Cert.Spec.cBot
          (fun k => Cert.Spec.c20 * v0 (ix3 b r (Cert.Spec.ch k)) + v2 (ix2 b k)) := by
  refine (Ideal.multiReduction_maximumf_single (k1_pay3 v0 v2) 0xFF800000#32 reduces_S8x640x3_S8x640 (.inl rfl) rfl (ix2 b r)).trans ?_
  refine Finset.fold_congr fun k _ => ?_
  show k1_pay3 v0 v2 (reduces_S8x640x3_S8x640.lift (ix2 b r) k) = _
  rw [locs_lift_chan b r k]
  exact locs_shifted_apply v0 v2 b r k

/-- The validity bit at row (b, r): the least shifted coordinate is ≥ 0, the greatest is < 4096, and the mask word is
    positive. -/
theorem locs_validbit_apply (v0 : Vec Ideal S8x640x4 .f32) (v2 : Vec Ideal S8x3 .f32) (v16 : Vec Ideal S8x640 .i32) (b : Fin 8) (r : Fin 640) :
    k1_pay5 v0 v2 v16 (ix2 b r) =
      IntOp.andi
        (IntOp.andi
          (FloatOps.cmpf (F := Ideal) (φ := .f32) .oge
            ((Finset.univ : Finset (Fin 3)).fold min Cert.Spec.cTop (fun k => Cert.Spec.c20 * v0 (ix3 b r (Cert.Spec.ch k)) + v2 (ix2 b k)))
            Cert.Spec.c0)
          (FloatOps.cmpf (F := Ideal) (φ := .f32) .olt
            ((Finset.univ : Finset (Fin 3)).fold max Cert.Spec.cBot (fun k => Cert.Spec.c20 * v0 (ix3 b r (Cert.Spec.ch k)) + v2 (ix2 b k)))
            Cert.Spec.c4096))
        (IntOp.cmpi .sgt (v16 (ix2 b r)) 0#32) := by
  unfold k1_pay5 k1_pay4
  exact congrArg₂ IntOp.andi
    (congrArg₂ IntOp.andi
      (congrArg (fun x => FloatOps.cmpf (F := Ideal) (φ := .f32) .oge x Cert.Spec.c0) (locs_min3_apply v0 v2 b r))
      (congrArg (fun x => FloatOps.cmpf (F := Ideal) (φ := .f32) .olt x Cert.Spec.c4096) (locs_max3_apply v0 v2 b r)))
    (congrArg (fun x => IntOp.cmpi .sgt x 0#32) (congrFun (shapeCast_self v16 shapeCasts_S8x640_S8x640) (ix2 b r)))

/-- The validity bit of row (b, r) as a function of the three loaded blocks. -/
def locsValidBit (v0 : Vec Ideal S8x640x4 .f32) (v2 : Vec Ideal S8x3 .f32) (v16 : Vec Ideal S8x640 .i32) (b : Fin 8) (r : Fin 640) : BitVec 1 :=
  IntOp.andi
    (IntOp.andi
      (FloatOps.cmpf (F := Ideal) (φ := .f32) .oge
        ((Finset.univ : Finset (Fin 3)).fold min Cert.Spec.cTop (fun k => Cert.Spec.c20 * v0 (ix3 b r (Cert.Spec.ch k)) + v2 (ix2 b k)))
        Cert.Spec.c0)
      (FloatOps.cmpf (F := Ideal) (φ := .f32) .olt
        ((Finset.univ : Finset (Fin 3)).fold max Cert.Spec.cBot (fun k => Cert.Spec.c20 * v0 (ix3 b r (Cert.Spec.ch k)) + v2 (ix2 b k)))
        Cert.Spec.c4096))
    (IntOp.cmpi .sgt (v16 (ix2 b r)) 0#32)

/-- The stored word at block index (b, r, k): the truncated shifted coordinate on channels 0..2 and the sample number b
    on channel 3 (the two pieces joined along the channel axis), times the validity bit zero-extended and broadcast over
    the four channels. -/
theorem locs_word_apply (v0 : Vec Ideal S8x640x4 .f32) (v2 : Vec Ideal S8x3 .f32) (v16 : Vec Ideal S8x640 .i32)
    (b : Fin 8) (r : Fin 640) (k : Fin 4) :
    k1_pay7 v0 v2 v16 (ix3 b r k) =
      IntOp.muli
        (if h : k.val < 3 then Ideal.fptosi 32 (Cert.Spec.c20 * v0 (ix3 b r (Cert.Spec.ch ⟨k.val, h⟩)) + v2 (ix2 b ⟨k.val, h⟩))
          else BitVec.ofNat 32 b.val)
        ((locsValidBit v0 v2 v16 b r).setWidth 32) := by
  unfold k1_pay7 k1_pay6
  refine congrArg₂ IntOp.muli ?_ ?_
  · show concatenate S8x640x4 2 [⟨S8x640x3, fptosi 32 (k1_pay3 v0 v2)⟩, ⟨S8x640x1, iota .tc S8x640x1 32 [0] iota_S8x640x1_d0_w32⟩]
        concatenates_S8x640x3_S8x640x1_S8x640x4_d2 (ix3 b r k) = _
    by_cases h : k.val < 3
    · rw [dif_pos h]
      refine (concatenate_pair_apply_left (t := S8x640x4) (s₁ := S8x640x3) (s₂ := S8x640x1) (2 : Fin S8x640x4.rank) _ _ _ (ix3 b r k) rfl (ix3 b r (⟨k.val, h⟩ : Fin 3)) (fun a => ?_)).trans ?_
      · match a with
        | ⟨0, _⟩ => rfl
        | ⟨1, _⟩ => rfl
        | ⟨2, _⟩ => rfl
      · exact congrArg (Ideal.fptosi 32) (locs_shifted_apply v0 v2 b r ⟨k.val, h⟩)
    · rw [dif_neg h]
      refine (concatenate_pair_apply_right (t := S8x640x4) (s₁ := S8x640x3) (s₂ := S8x640x1) (2 : Fin S8x640x4.rank) _ _ _ (ix3 b r k) rfl rfl (ix3 b r (0 : Fin 1)) (fun a hne => ?_) ?_).trans ?_
      · match a with
        | ⟨0, _⟩ => rfl
        | ⟨1, _⟩ => rfl
        | ⟨2, _⟩ => exact absurd rfl hne
      · show 0 + 3 = k.val
        have := k.isLt
        omega
      · exact iota_single_apply .tc S8x640x1 32 0 iota_S8x640x1_d0_w32 (ix3 b r (0 : Fin 1))
  · refine (locs_valid_chans_apply _ _ b r k).trans ?_
    refine (locs_cast_last_unit_apply _ _ b r 0).trans ?_
    exact congrArg (fun x => BitVec.setWidth 32 x) (locs_validbit_apply v0 v2 v16 b r)

/-! ## The stored word against the specification's word -/

/-- If the three loaded blocks are rows of the points array `P`, the offset array `off` and the mask array `M2` (block row
    r is array row n), the stored word at (b, r, k) is the specification's location word at (b, n, k). -/
theorem locs_word_eq_locAt (x0 : Vec Ideal S8x640x4 .f32) (x3 : Vec Ideal S8x3 .f32) (x2 : Vec Ideal S8x640 .i32)
    (P : FVec Ideal Cert.Spec.SP .f32) (off : FVec Ideal Cert.Spec.SO .f32) (M2 : IVec Cert.Spec.SM2 32)
    (b : Fin 8) (r : Fin 640) (n : Fin 400000) (k : Fin 4)
    (h0 : ∀ k4 : Fin 4, x0 (ix3 b r k4) = P (ix3 b n k4)) (h3 : ∀ k3 : Fin 3, x3 (ix2 b k3) = off (ix2 b k3))
    (h2 : x2 (ix2 b r) = M2 (ix2 b n)) :
    IntOp.muli
        (if h : k.val < 3 then Ideal.fptosi 32 (Cert.Spec.c20 * x0 (ix3 b r (Cert.Spec.ch ⟨k.val, h⟩)) + x3 (ix2 b ⟨k.val, h⟩))
          else BitVec.ofNat 32 b.val)
        ((locsValidBit x0 x3 x2 b r).setWidth 32)
      = Cert.Spec.locAt P off (M2 (ix2 b n)) b n k := by
  have hfun : (fun k3 : Fin 3 => Cert.Spec.c20 * x0 (ix3 b r (Cert.Spec.ch k3)) + x3 (ix2 b k3)) = Cert.Spec.aAt P off b n :=
    funext fun k3 => by rw [h0, h3]; rfl
  have hv : locsValidBit x0 x3 x2 b r = Cert.Spec.validAt P off (M2 (ix2 b n)) b n := by
    unfold locsValidBit Cert.Spec.validAt
    rw [hfun, h2]
  have hd : (if h : k.val < 3 then Ideal.fptosi 32 (Cert.Spec.c20 * x0 (ix3 b r (Cert.Spec.ch ⟨k.val, h⟩)) + x3 (ix2 b ⟨k.val, h⟩))
        else BitVec.ofNat 32 b.val)
      = (if h : k.val < 3 then Ideal.fptosi 32 (Cert.Spec.aAt P off b n ⟨k.val, h⟩) else BitVec.ofNat 32 b.val) := by
    by_cases h : k.val < 3
    · rw [dif_pos h, dif_pos h, h0, h3]; rfl
    · rw [dif_neg h, dif_neg h]
  unfold Cert.Spec.locAt
  exact congrArg₂ IntOp.muli hd (congrArg (fun x => BitVec.setWidth 32 x) hv)

/-! ## The windows' blocks as rows of the arrays -/

theorem locs_zero3 : (![0, 0, 0] : Fin 3 → Nat) = fun _ => 0 := funext fun a => by fin_cases a <;> rfl
theorem locs_zero2 : (![0, 0] : Fin 2 → Nat) = fun _ => 0 := funext fun a => by fin_cases a <;> rfl

/-- The printed index maps over the grid: at point t the locations, points and mask windows are at block (0, t[, 0]) and
    the offset window at block (0, 0). -/
theorem locs_idx_facts : ∀ t : Fin cfg1.N,
    win1_5.index t (0 : Fin 3) = 0 ∧ win1_5.index t (1 : Fin 3) = t.val ∧ win1_5.index t (2 : Fin 3) = 0
    ∧ win1_0.index t (0 : Fin 3) = 0 ∧ win1_0.index t (1 : Fin 3) = t.val ∧ win1_0.index t (2 : Fin 3) = 0
    ∧ win1_2.index t (0 : Fin 2) = 0 ∧ win1_2.index t (1 : Fin 2) = t.val
    ∧ win1_3.index t (0 : Fin 2) = 0 ∧ win1_3.index t (1 : Fin 2) = 0 :=
  (by decide +kernel : ∀ t : Fin grid1.N, _)

/-- The points window's block at point t, row r, is row 640 t + r of the points array. -/
theorem locs_points_blk (c : Dev nD) (t : Fin cfg1.N) (b : Fin 8) (r : Fin 640) (k : Fin 4) (n : Fin 400000)
    (hn : n.val = 640 * t.val + r.val) :
    (iblk1 (F := Ideal) V c 0 t) (ix3 b r k) = V c main_arg0 (ix3 b n k) := by
  obtain ⟨-, -, -, e0, e1, e2, -⟩ := locs_idx_facts t
  unfold iblk1
  rw [View.read_apply]
  show V c main_arg0 _ = V c main_arg0 _
  congr 1
  funext a
  apply Fin.ext
  match a with
  | ⟨0, _⟩ => show win1_0.index t (0 : Fin 3) * 8 + 1 * b.val = b.val; rw [e0]; omega
  | ⟨1, _⟩ => show win1_0.index t (1 : Fin 3) * 640 + 1 * r.val = n.val; rw [e1, hn]; omega
  | ⟨2, _⟩ => show win1_0.index t (2 : Fin 3) * 4 + 1 * k.val = k.val; rw [e2]; omega

/-- The mask window's block at point t, row r, is row 640 t + r of the mask array. -/
theorem locs_mask_blk (c : Dev nD) (t : Fin cfg1.N) (b : Fin 8) (r : Fin 640) (n : Fin 400000)
    (hn : n.val = 640 * t.val + r.val) :
    (iblk1 (F := Ideal) V c 2 t) (ix2 b r) = V c main_v19 (ix2 b n) := by
  obtain ⟨-, -, -, -, -, -, e0, e1, -⟩ := locs_idx_facts t
  unfold iblk1
  rw [View.read_apply]
  show V c main_v19 _ = V c main_v19 _
  congr 1
  funext a
  apply Fin.ext
  match a with
  | ⟨0, _⟩ => show win1_2.index t (0 : Fin 2) * 8 + 1 * b.val = b.val; rw [e0]; omega
  | ⟨1, _⟩ => show win1_2.index t (1 : Fin 2) * 640 + 1 * r.val = n.val; rw [e1, hn]; omega

/-- The offset window's block at any point is the whole offset array. -/
theorem locs_offset_blk (c : Dev nD) (t : Fin cfg1.N) (b : Fin 8) (k : Fin 3) :
    (iblk1 (F := Ideal) V c 3 t) (ix2 b k) = V c main_v18 (ix2 b k) := by
  obtain ⟨-, -, -, -, -, -, -, -, e0, e1⟩ := locs_idx_facts t
  unfold iblk1
  rw [View.read_apply]
  show V c main_v18 _ = V c main_v18 _
  congr 1
  funext a
  apply Fin.ext
  match a with
  | ⟨0, _⟩ => show win1_3.index t (0 : Fin 2) * 8 + 1 * b.val = b.val; rw [e0]; omega
  | ⟨1, _⟩ => show win1_3.index t (1 : Fin 2) * 3 + 1 * k.val = k.val; rw [e1]; omega

/-! ## From blocks to the array -/

/-- What the body leaves at block index j of the locations window at point t is the specification's array at the place
    of j in the array: row r of block t is row 640 t + r. -/
theorem locs_block_eq (c : Dev nD) (t : Fin cfg1.N) (j : S8x640x4.Idx) :
    k1_pay7 (iblk1 (F := Ideal) V c 0 t) (iblk1 (F := Ideal) V c 3 t) (iblk1 (F := Ideal) V c 2 t) j
      = Cert.Spec.locsG (V c main_arg0) (V c main_v18) (V c main_v19) (((cfg1.win 5).blk t).view.emb j) := by
  obtain ⟨b, r, k, rfl⟩ : ∃ (b : Fin 8) (r : Fin 640) (k : Fin 4), j = ix3 b r k := ⟨j 0, j 1, j 2, eq_ix3 j⟩
  obtain ⟨e0, e1, e2, -⟩ := locs_idx_facts t
  have hN : t.val < 625 := Nat.lt_of_lt_of_eq t.isLt (show cfg1.N = 625 from N_1)
  have hn : 640 * t.val + r.val < 400000 := by have := r.isLt; omega
  have hemb : ((cfg1.win 5).blk t).view.emb (ix3 b r k) = ix3 b (⟨640 * t.val + r.val, hn⟩ : Fin 400000) k := by
    funext a
    apply Fin.ext
    match a with
    | ⟨0, _⟩ => show win1_5.index t (0 : Fin 3) * 8 + 1 * b.val = b.val; rw [e0]; omega
    | ⟨1, _⟩ => show win1_5.index t (1 : Fin 3) * 640 + 1 * r.val = 640 * t.val + r.val; rw [e1]; omega
    | ⟨2, _⟩ => show win1_5.index t (2 : Fin 3) * 4 + 1 * k.val = k.val; rw [e2]; omega
  rw [hemb]
  refine (locs_word_apply (iblk1 (F := Ideal) V c 0 t) (iblk1 (F := Ideal) V c 3 t) (iblk1 (F := Ideal) V c 2 t) b r k).trans ?_
  exact locs_word_eq_locAt (iblk1 (F := Ideal) V c 0 t) (iblk1 (F := Ideal) V c 3 t) (iblk1 (F := Ideal) V c 2 t)
    (V c main_arg0) (V c main_v18) (V c main_v19) b r ⟨640 * t.val + r.val, hn⟩ k
    (fun k4 => locs_points_blk V c t b r k4 ⟨640 * t.val + r.val, hn⟩ rfl) (fun k3 => locs_offset_blk V c t b k3)
    (locs_mask_blk V c t b r ⟨640 * t.val + r.val, hn⟩ rfl)

/-- What point t writes back to the locations array is block t of the specification's array. -/
theorem locs_flushed_eq (c : Dev nD) (t : Fin cfg1.N) :
    (dat1 (F := Ideal) V c).flushed 5 t
      = ((cfg1.win 5).blk t).view.read (Elt Ideal) (Cert.Spec.locsG (V c main_arg0) (V c main_v18) (V c main_v19)) := by
  show (cfg1.win 5).cut (grid1.coords t) ((dat1 (F := Ideal) V c).after 5 t) = _
  rw [after1_5]
  unfold out1_5
  rw [View.canon_unit_zero locs_zero3]
  simp only [View.ld_unit_zero (S := S8x640x4) locs_zero3, View.ld_unit_zero (S := S8x3) locs_zero2,
    View.ld_unit_zero (S := S8x640) locs_zero2]
  funext j
  exact locs_block_eq V c t j

/-- An index of the locations array is in point t's block iff each coordinate is in the block's range on its axis. -/
theorem locs_mem_blk (t : Fin cfg1.N) (i : S8x400000x4.Idx) :
    i ∈ ((cfg1.win 5).blk t).view.set ↔ ∀ a : Fin 3, win1_5.index t a * S8x640x4.size a ≤ (i a).val
      ∧ (i a).val < win1_5.index t a * S8x640x4.size a + S8x640x4.size a := by
  show i ∈ ((View.whole main_v20_0).slice (win1_5.rect t)).set ↔ _
  rw [View.set_slice_whole, Rect.mem_set_unit]
  exact Iff.rfl

/-- Every index of the locations array is in some point's block: row n is in block n / 640. -/
theorem locs_cover (i : S8x400000x4.Idx) :
    ∃ t : Fin cfg1.N, (cfg1.win 5).flush t = true ∧ i ∈ ((cfg1.win 5).blk t).view.set := by
  have hi0 : (i 0).val < 8 := (i 0).isLt
  have hi1 : (i 1).val < 400000 := (i 1).isLt
  have hi2 : (i 2).val < 4 := (i 2).isLt
  have hN : cfg1.N = 625 := N_1
  have ht : (i 1).val / 640 < cfg1.N := by rw [hN]; omega
  obtain ⟨e0, e1, e2, -⟩ := locs_idx_facts ⟨(i 1).val / 640, ht⟩
  have e1' : win1_5.index ⟨(i 1).val / 640, ht⟩ (1 : Fin 3) = (i 1).val / 640 := e1
  refine ⟨⟨(i 1).val / 640, ht⟩, flush1_5 _, ?_⟩
  rw [locs_mem_blk]
  intro a
  match a with
  | ⟨0, _⟩ =>
    show win1_5.index ⟨(i 1).val / 640, ht⟩ (0 : Fin 3) * 8 ≤ (i 0).val
      ∧ (i 0).val < win1_5.index ⟨(i 1).val / 640, ht⟩ (0 : Fin 3) * 8 + 8
    rw [e0]; omega
  | ⟨1, _⟩ =>
    show win1_5.index ⟨(i 1).val / 640, ht⟩ (1 : Fin 3) * 640 ≤ (i 1).val
      ∧ (i 1).val < win1_5.index ⟨(i 1).val / 640, ht⟩ (1 : Fin 3) * 640 + 640
    rw [e1']; omega
  | ⟨2, _⟩ =>
    show win1_5.index ⟨(i 1).val / 640, ht⟩ (2 : Fin 3) * 4 ≤ (i 2).val
      ∧ (i 2).val < win1_5.index ⟨(i 1).val / 640, ht⟩ (2 : Fin 3) * 4 + 4
    rw [e2]; omega

/-- The offset array is only read: it leaves the region as it entered. -/
theorem reg1_off (c : Dev nD) : (dat1 (F := Ideal) V c).arrAt 3 cfg1.N = V c main_v18 :=
  ((dat1 (F := Ideal) V c).arrAt_in 3 rfl _).trans (A_eq1 V c 3)

/-- The locations. -/
theorem reg1_locs (c : Dev nD) :
    (dat1 (F := Ideal) V c).arrAt 5 cfg1.N = Cert.Spec.locsG (V c main_arg0) (V c main_v18) (V c main_v19) :=
  (dat1 (F := Ideal) V c).arrAt_eq_of_cover 5 (Cert.Spec.locsG (V c main_arg0) (V c main_v18) (V c main_v19))
    (fun t _ => locs_flushed_eq V c t) locs_cover

end Cert.KernelIdeal.Val

end
-- ==== Proof.KReg1F.lean ====
/- Region 1 (the transform pass): the features array and the new mask it leaves, as functions of the arrays it is
   entered with. -/
import proofs.«101466_j2327872274833_1_alg».proof.Proof.Gen.KernelIdeal.Frame
import proofs.«101466_j2327872274833_1_alg».proof.Proof.Spec
import Idealize.ShloMosaic.Lib.Pipeline.Value
import proofs.«101466_j2327872274833_1_alg».proof.Proof.LibReduceMinMax
set_option maxRecDepth 16384

noncomputable section

namespace Cert.KernelIdeal.Val

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-! ## Layout operations of the body, read at an index -/

section Layout
variable {α : Type}

/-- A [8, 3] vector viewed as [8, 1, 3] reads (b, k) at (b, 0, k). -/
theorem feats_cast_8x3_8x1x3_apply (v : S8x3.Idx → α) (h : S8x3.ShapeCasts S8x1x3) (b : Fin 8) (z : Fin 1) (k : Fin 3) :
    shapeCast S8x1x3 v h (ix3 b z k) = v (ix2 b k) := by
  refine shapeCast_apply v h _ _ ?_
  rw [Shape.rowMajor_val_two, Shape.rowMajor_val_three]
  show b.val * 3 + k.val = (b.val * 1 + z.val) * 3 + k.val
  have := z.isLt; omega

/-- A [8, 640] vector viewed as [8, 640, 1] reads (b, r) at (b, r, 0). -/
theorem feats_cast_8x640_8x640x1_apply (v : S8x640.Idx → α) (h : S8x640.ShapeCasts S8x640x1) (b : Fin 8) (r : Fin 640) (z : Fin 1) :
    shapeCast S8x640x1 v h (ix3 b r z) = v (ix2 b r) := by
  refine shapeCast_apply v h _ _ ?_
  rw [Shape.rowMajor_val_two, Shape.rowMajor_val_three]
  show b.val * 640 + r.val = (b.val * 640 + r.val) * 1 + z.val
  have := z.isLt; omega

/-- A [8, 1, 3] vector repeated over 640 rows reads (b, 0, k) at (b, r, k). -/
theorem feats_rows_8x1x3_apply (v : S8x1x3.Idx → α) (h : S8x1x3.Broadcasts S8x640x3) (b : Fin 8) (r : Fin 640) (k : Fin 3) :
    broadcastTo S8x640x3 v h (ix3 b r k) = v (ix3 b (0 : Fin 1) k) := by
  refine broadcastTo_apply v h _ _ fun a => ?_
  match a with
  | ⟨0, _⟩ => rfl
  | ⟨1, _⟩ => rfl
  | ⟨2, _⟩ => rfl

/-- A [8, 640, 1] vector repeated over 3 channels reads (b, r, 0) at (b, r, k). -/
theorem feats_chans_8x640x1_apply (v : S8x640x1.Idx → α) (h : S8x640x1.Broadcasts S8x640x3) (b : Fin 8) (r : Fin 640) (k : Fin 3) :
    broadcastTo S8x640x3 v h (ix3 b r k) = v (ix3 b r (0 : Fin 1)) := by
  refine broadcastTo_apply v h _ _ fun a => ?_
  match a with
  | ⟨0, _⟩ => rfl
  | ⟨1, _⟩ => rfl
  | ⟨2, _⟩ => rfl

/-- The first three channels of a [8, 640, 4] vector. -/
theorem feats_first3_apply (v : S8x640x4.Idx → α) (h : S8x640x4.Slices ![0, 0, 0] S8x640x3) (b : Fin 8) (r : Fin 640) (k : Fin 3) :
    extractStridedSlice S8x640x3 ![0, 0, 0] v h (ix3 b r k) = v (ix3 b r (Spec.ch k)) := by
  refine extractStridedSlice_apply _ v h _ _ fun a => ?_
  match a with
  | ⟨0, _⟩ => show b.val = 0 + b.val; omega
  | ⟨1, _⟩ => show r.val = 0 + r.val; omega
  | ⟨2, _⟩ => show k.val = 0 + k.val; omega

end Layout

/-! ## The body's arithmetic at one index -/

/-- The shifted coordinates the body forms from its block of points and the offsets: at (b, r, k) the scaled point's
    channel k plus the offset of (b, k). -/
theorem feats_shifted_apply (x0 : Vec Ideal S8x640x4 .f32) (x3 : Vec Ideal S8x3 .f32) (b : Fin 8) (r : Fin 640) (k : Fin 3) :
    k1_pay3 x0 x3 (ix3 b r k) = Spec.c20 * x0 (ix3 b r (Spec.ch k)) + x3 (ix2 b k) := by
  unfold k1_pay3
  rw [addf_apply, mulf_apply, broadcast_apply, feats_first3_apply, feats_rows_8x1x3_apply, feats_cast_8x3_8x1x3_apply, shapeCast_self]
  rfl

/-- The validity bit the body forms at (b, r): when the block's row r is the arrays' row n, it is the specification's bit of
    point (b, n) — the minimum and the maximum over the three channels are folds over the same three shifted coordinates. -/
theorem feats_validbit_apply (x0 : Vec Ideal S8x640x4 .f32) (x3 : Vec Ideal S8x3 .f32) (x2 : Vec Ideal S8x640 .i32)
    (P : FVec Ideal Spec.SP .f32) (off : FVec Ideal Spec.SO .f32) (mk : BitVec 32) (b : Fin 8) (r : Fin 640) (n : Fin 400000)
    (hP : ∀ k : Fin 3, x0 (ix3 b r (Spec.ch k)) = P (ix3 b n (Spec.ch k))) (hoff : ∀ k : Fin 3, x3 (ix2 b k) = off (ix2 b k))
    (hmk : x2 (ix2 b r) = mk) :
    k1_pay5 x0 x3 x2 (ix2 b r) = Spec.validAt P off mk b n := by
  have hsh : ∀ k : Fin 3, k1_pay3 x0 x3 (reduces_S8x640x3_S8x640.lift (ix2 b r) k) = Spec.aAt P off b n k := fun k => by
    have e : reduces_S8x640x3_S8x640.lift (ix2 b r) k = ix3 b r k :=
      funext fun a => Fin.ext (by match a with | ⟨0, _⟩ => rfl | ⟨1, _⟩ => rfl | ⟨2, _⟩ => rfl)
    rw [e, feats_shifted_apply, hP, hoff]; rfl
  have hmin := (Cert.Lib.multiReduction_minimumf_single (k1_pay3 x0 x3) 0x7F800000#32 reduces_S8x640x3_S8x640 (.inl rfl) rfl (ix2 b r)).trans
    (Finset.fold_congr fun k _ => hsh k)
  have hmax := (Ideal.multiReduction_maximumf_single (k1_pay3 x0 x3) 0xFF800000#32 reduces_S8x640x3_S8x640 (.inl rfl) rfl (ix2 b r)).trans
    (Finset.fold_congr fun k _ => hsh k)
  unfold k1_pay5 Spec.validAt
  refine congrArg₂ IntOp.andi (congrArg₂ IntOp.andi (congrArg₂ (FloatOps.cmpf (F := Ideal) (φ := .f32) .oge) hmin rfl)
    (congrArg₂ (FloatOps.cmpf (F := Ideal) (φ := .f32) .olt) hmax rfl)) (congrArg₂ (IntOp.cmpi .sgt) ?_ rfl)
  unfold k1_pay4
  rw [shapeCast_self]; exact hmk

/-- A one-bit word, zero-extended to 32 bits and read as a signed integer, is the bit as a natural number. -/
theorem feats_bit_extended_toInt : ∀ v : BitVec 1, (v.setWidth 32).toInt = (v.toNat : ℤ) := by decide

/-- The features the body stores at (b, r, k): the block's feature plus the noise of (b, k), times the validity bit — the
    specification's feature of point (b, n) when the block's row r is the arrays' row n. -/
theorem feats_payload_apply (x0 : Vec Ideal S8x640x4 .f32) (x1 : Vec Ideal S8x640x3 .f32) (x2 : Vec Ideal S8x640 .i32)
    (x3 x4 : Vec Ideal S8x3 .f32)
    (P : FVec Ideal Spec.SP .f32) (off : FVec Ideal Spec.SO .f32) (mk : BitVec 32) (fe nz : EReal)
    (b : Fin 8) (r : Fin 640) (n : Fin 400000) (k : Fin 3)
    (hP : ∀ k : Fin 3, x0 (ix3 b r (Spec.ch k)) = P (ix3 b n (Spec.ch k))) (hoff : ∀ k : Fin 3, x3 (ix2 b k) = off (ix2 b k))
    (hmk : x2 (ix2 b r) = mk) (hfe : x1 (ix3 b r k) = fe) (hnz : x4 (ix2 b k) = nz) :
    k1_pay1 (k1_pay8 x4 x1) (k1_pay9 x0 x3 x2) (ix3 b r k) = Spec.featAt P off mk fe nz b n := by
  unfold k1_pay1 k1_pay8 k1_pay9 Spec.featAt
  rw [mulf_apply, addf_apply, feats_rows_8x1x3_apply, feats_cast_8x3_8x1x3_apply, feats_chans_8x640x1_apply, feats_cast_8x640_8x640x1_apply,
    sitofp_apply, extui_apply, feats_validbit_apply x0 x3 x2 P off mk b r n hP hoff hmk, hfe, hnz]
  show (fe + nz) * (((((Spec.validAt P off mk b n).setWidth 32).toInt : ℝ) : EReal)) = _
  rw [feats_bit_extended_toInt, Int.cast_natCast]

/-- The mask word the body stores at (b, r): the block's mask word times the validity bit. -/
theorem masks_payload_apply (x0 : Vec Ideal S8x640x4 .f32) (x2 : Vec Ideal S8x640 .i32) (x3 : Vec Ideal S8x3 .f32)
    (P : FVec Ideal Spec.SP .f32) (off : FVec Ideal Spec.SO .f32) (mk : BitVec 32)
    (b : Fin 8) (r : Fin 640) (n : Fin 400000)
    (hP : ∀ k : Fin 3, x0 (ix3 b r (Spec.ch k)) = P (ix3 b n (Spec.ch k))) (hoff : ∀ k : Fin 3, x3 (ix2 b k) = off (ix2 b k))
    (hmk : x2 (ix2 b r) = mk) :
    k1_pay2 (k1_pay4 x2) (k1_pay6 x0 x3 x2) (ix2 b r) = Spec.maskAt P off mk b n := by
  unfold k1_pay2 k1_pay4 k1_pay6 Spec.maskAt
  rw [shapeCast_self]
  show IntOp.muli (x2 (ix2 b r)) ((k1_pay5 x0 x3 x2 (ix2 b r)).setWidth 32) = _
  rw [hmk, feats_validbit_apply x0 x3 x2 P off mk b r n hP hoff hmk]

/-! ## The windows' blocks as rows of the arrays -/

theorem feats_zero_offsets3 : (![0, 0, 0] : Fin 3 → Nat) = fun _ => 0 := funext fun a => by fin_cases a <;> rfl
theorem feats_zero_offsets2 : (![0, 0] : Fin 2 → Nat) = fun _ => 0 := funext fun a => by fin_cases a <;> rfl

/-- The windows' index maps at every point of the grid: at point t every window cut along the points' axis is at block
    (0, t[, 0]) and the two small windows stay at block (0, 0). -/
theorem feats_block_indices : ∀ t : Fin cfg1.N,
    win1_0.index t (0 : Fin 3) = 0 ∧ win1_0.index t (1 : Fin 3) = t.val ∧ win1_0.index t (2 : Fin 3) = 0
    ∧ win1_1.index t (0 : Fin 3) = 0 ∧ win1_1.index t (1 : Fin 3) = t.val ∧ win1_1.index t (2 : Fin 3) = 0
    ∧ win1_2.index t (0 : Fin 2) = 0 ∧ win1_2.index t (1 : Fin 2) = t.val
    ∧ win1_3.index t (0 : Fin 2) = 0 ∧ win1_3.index t (1 : Fin 2) = 0
    ∧ win1_4.index t (0 : Fin 2) = 0 ∧ win1_4.index t (1 : Fin 2) = 0
    ∧ win1_6.index t (0 : Fin 3) = 0 ∧ win1_6.index t (1 : Fin 3) = t.val ∧ win1_6.index t (2 : Fin 3) = 0
    ∧ win1_7.index t (0 : Fin 2) = 0 ∧ win1_7.index t (1 : Fin 2) = t.val :=
  (by decide +kernel : ∀ t : Fin grid1.N, _)

/-- The points' block at point t is rows 640 t … 640 t + 639 of the points. -/
theorem feats_points_block_apply (c : Dev nD) (t : Fin cfg1.N) (b : Fin 8) (r : Fin 640) (k : Fin 4) (n : Fin 400000)
    (hn : n.val = 640 * t.val + r.val) :
    (iblk1 V c 0 t : Vec Ideal S8x640x4 .f32) (ix3 b r k) = (V c main_arg0 : S8x400000x4.Idx → EReal) (ix3 b n k) := by
  obtain ⟨e0, e1, e2, -⟩ := feats_block_indices t
  unfold iblk1
  rw [View.read_apply]
  show V c main_arg0 _ = V c main_arg0 _
  congr 1
  funext a
  apply Fin.ext
  match a with
  | ⟨0, _⟩ => show win1_0.index t (0 : Fin 3) * 8 + 1 * b.val = b.val; rw [e0]; omega
  | ⟨1, _⟩ => show win1_0.index t (1 : Fin 3) * 640 + 1 * r.val = n.val; rw [e1, hn]; omega
  | ⟨2, _⟩ => show win1_0.index t (2 : Fin 3) * 4 + 1 * k.val = k.val; rw [e2]; omega

/-- The features' block at point t is rows 640 t … 640 t + 639 of the features. -/
theorem feats_feas_block_apply (c : Dev nD) (t : Fin cfg1.N) (b : Fin 8) (r : Fin 640) (k : Fin 3) (n : Fin 400000)
    (hn : n.val = 640 * t.val + r.val) :
    (iblk1 V c 1 t : Vec Ideal S8x640x3 .f32) (ix3 b r k) = (V c main_arg1 : S8x400000x3.Idx → EReal) (ix3 b n k) := by
  obtain ⟨-, -, -, e0, e1, e2, -⟩ := feats_block_indices t
  unfold iblk1
  rw [View.read_apply]
  show V c main_arg1 _ = V c main_arg1 _
  congr 1
  funext a
  apply Fin.ext
  match a with
  | ⟨0, _⟩ => show win1_1.index t (0 : Fin 3) * 8 + 1 * b.val = b.val; rw [e0]; omega
  | ⟨1, _⟩ => show win1_1.index t (1 : Fin 3) * 640 + 1 * r.val = n.val; rw [e1, hn]; omega
  | ⟨2, _⟩ => show win1_1.index t (2 : Fin 3) * 3 + 1 * k.val = k.val; rw [e2]; omega

/-- The mask's block at point t is columns 640 t … 640 t + 639 of the [8, 400000] mask. -/
theorem feats_mask_block_apply (c : Dev nD) (t : Fin cfg1.N) (b : Fin 8) (r : Fin 640) (n : Fin 400000)
    (hn : n.val = 640 * t.val + r.val) :
    (iblk1 V c 2 t : Vec Ideal S8x640 .i32) (ix2 b r) = (V c main_v19 : S8x400000.Idx → BitVec 32) (ix2 b n) := by
  obtain ⟨-, -, -, -, -, -, e0, e1, -⟩ := feats_block_indices t
  unfold iblk1
  rw [View.read_apply]
  show V c main_v19 _ = V c main_v19 _
  congr 1
  funext a
  apply Fin.ext
  match a with
  | ⟨0, _⟩ => show win1_2.index t (0 : Fin 2) * 8 + 1 * b.val = b.val; rw [e0]; omega
  | ⟨1, _⟩ => show win1_2.index t (1 : Fin 2) * 640 + 1 * r.val = n.val; rw [e1, hn]; omega

/-- The offsets' block at every point is the whole [8, 3] offsets. -/
theorem feats_offsets_block_apply (c : Dev nD) (t : Fin cfg1.N) (b : Fin 8) (k : Fin 3) :
    (iblk1 V c 3 t : Vec Ideal S8x3 .f32) (ix2 b k) = (V c main_v18 : S8x3.Idx → EReal) (ix2 b k) := by
  obtain ⟨-, -, -, -, -, -, -, -, e0, e1, -⟩ := feats_block_indices t
  unfold iblk1
  rw [View.read_apply]
  show V c main_v18 _ = V c main_v18 _
  congr 1
  funext a
  apply Fin.ext
  match a with
  | ⟨0, _⟩ => show win1_3.index t (0 : Fin 2) * 8 + 1 * b.val = b.val; rw [e0]; omega
  | ⟨1, _⟩ => show win1_3.index t (1 : Fin 2) * 3 + 1 * k.val = k.val; rw [e1]; omega

/-- The noise's block at every point is the whole [8, 3] noise. -/
theorem feats_noise_block_apply (c : Dev nD) (t : Fin cfg1.N) (b : Fin 8) (k : Fin 3) :
    (iblk1 V c 4 t : Vec Ideal S8x3 .f32) (ix2 b k) = (V c main_arg4 : S8x3.Idx → EReal) (ix2 b k) := by
  obtain ⟨-, -, -, -, -, -, -, -, -, -, e0, e1, -⟩ := feats_block_indices t
  unfold iblk1
  rw [View.read_apply]
  show V c main_arg4 _ = V c main_arg4 _
  congr 1
  funext a
  apply Fin.ext
  match a with
  | ⟨0, _⟩ => show win1_4.index t (0 : Fin 2) * 8 + 1 * b.val = b.val; rw [e0]; omega
  | ⟨1, _⟩ => show win1_4.index t (1 : Fin 2) * 3 + 1 * k.val = k.val; rw [e1]; omega

/-- Where the features output's block at point t sits in its array: block index (b, r, k) is array index (b, 640 t + r, k). -/
theorem feats_block_emb (t : Fin cfg1.N) (b : Fin 8) (r : Fin 640) (k : Fin 3) (n : Fin 400000)
    (hn : n.val = 640 * t.val + r.val) :
    ((cfg1.win 6).blk t).view.emb (ix3 b r k) = (ix3 b n k : S8x400000x3.Idx) := by
  obtain ⟨-, -, -, -, -, -, -, -, -, -, -, -, e0, e1, e2, -⟩ := feats_block_indices t
  funext a
  apply Fin.ext
  match a with
  | ⟨0, _⟩ => show win1_6.index t (0 : Fin 3) * 8 + 1 * b.val = b.val; rw [e0]; omega
  | ⟨1, _⟩ => show win1_6.index t (1 : Fin 3) * 640 + 1 * r.val = n.val; rw [e1, hn]; omega
  | ⟨2, _⟩ => show win1_6.index t (2 : Fin 3) * 3 + 1 * k.val = k.val; rw [e2]; omega

/-- Where the new mask's block at point t sits in its array: block index (b, r) is array index (b, 640 t + r). -/
theorem masks_block_emb (t : Fin cfg1.N) (b : Fin 8) (r : Fin 640) (n : Fin 400000)
    (hn : n.val = 640 * t.val + r.val) :
    ((cfg1.win 7).blk t).view.emb (ix2 b r) = (ix2 b n : S8x400000.Idx) := by
  obtain ⟨-, -, -, -, -, -, -, -, -, -, -, -, -, -, -, e0, e1⟩ := feats_block_indices t
  funext a
  apply Fin.ext
  match a with
  | ⟨0, _⟩ => show win1_7.index t (0 : Fin 2) * 8 + 1 * b.val = b.val; rw [e0]; omega
  | ⟨1, _⟩ => show win1_7.index t (1 : Fin 2) * 640 + 1 * r.val = n.val; rw [e1, hn]; omega

/-- Row 640 t + r is a row of the arrays. -/
theorem feats_row_lt (t : Fin cfg1.N) (r : Fin 640) : 640 * t.val + r.val < 400000 := by
  have hN : cfg1.N = 625 := N_1
  have ht := t.isLt
  have hr := r.isLt
  omega

/-! ## What each point writes back, and the arrays after the run -/

/-- What point t writes back to the features output is block t of the specification's features array. -/
theorem feats_flushed (c : Dev nD) (t : Fin cfg1.N) :
    (dat1 V c).flushed 6 t = ((cfg1.win 6).blk t).view.read (Elt Ideal)
      (Cert.Spec.featsG (V c main_arg0) (V c main_v18) (V c main_v19) (V c main_arg1) (V c main_arg4)) := by
  show (cfg1.win 6).cut (grid1.coords t) ((dat1 V c).after 6 t) = _
  rw [after1_6]
  unfold out1_6
  rw [View.canon_unit_zero feats_zero_offsets3]
  simp only [View.ld_unit_zero (S := S8x640x4) feats_zero_offsets3, View.ld_unit_zero (S := S8x640x3) feats_zero_offsets3,
    View.ld_unit_zero (S := S8x640) feats_zero_offsets2, View.ld_unit_zero (S := S8x3) feats_zero_offsets2]
  funext y
  obtain ⟨b, r, k, rfl⟩ : ∃ (b : Fin 8) (r : Fin 640) (k : Fin 3), y = ix3 b r k := ⟨y 0, y 1, y 2, eq_ix3 y⟩
  obtain ⟨n, hn⟩ : ∃ n : Fin 400000, n.val = 640 * t.val + r.val := ⟨⟨_, feats_row_lt t r⟩, rfl⟩
  show k1_pay1 (k1_pay8 (iblk1 V c 4 t) (iblk1 V c 1 t)) (k1_pay9 (iblk1 V c 0 t) (iblk1 V c 3 t) (iblk1 V c 2 t)) (ix3 b r k)
    = Cert.Spec.featsG (V c main_arg0) (V c main_v18) (V c main_v19) (V c main_arg1) (V c main_arg4)
        (((cfg1.win 6).blk t).view.emb (ix3 b r k))
  rw [feats_block_emb t b r k n hn]
  exact feats_payload_apply (iblk1 V c 0 t) (iblk1 V c 1 t) (iblk1 V c 2 t) (iblk1 V c 3 t) (iblk1 V c 4 t)
    (V c main_arg0) (V c main_v18) ((V c main_v19 : S8x400000.Idx → BitVec 32) (ix2 b n))
    ((V c main_arg1 : S8x400000x3.Idx → EReal) (ix3 b n k)) ((V c main_arg4 : S8x3.Idx → EReal) (ix2 b k)) b r n k
    (fun k' => feats_points_block_apply V c t b r (Spec.ch k') n hn) (fun k' => feats_offsets_block_apply V c t b k')
    (feats_mask_block_apply V c t b r n hn) (feats_feas_block_apply V c t b r k n hn) (feats_noise_block_apply V c t b k)

/-- What point t writes back to the new mask is block t of the specification's mask array. -/
theorem masks_flushed (c : Dev nD) (t : Fin cfg1.N) :
    (dat1 V c).flushed 7 t = ((cfg1.win 7).blk t).view.read (Elt Ideal)
      (Cert.Spec.masksG (V c main_arg0) (V c main_v18) (V c main_v19)) := by
  show (cfg1.win 7).cut (grid1.coords t) ((dat1 V c).after 7 t) = _
  rw [after1_7]
  unfold out1_7
  rw [View.canon_unit_zero feats_zero_offsets2]
  simp only [View.ld_unit_zero (S := S8x640x4) feats_zero_offsets3, View.ld_unit_zero (S := S8x640) feats_zero_offsets2,
    View.ld_unit_zero (S := S8x3) feats_zero_offsets2]
  funext y
  obtain ⟨b, r, rfl⟩ : ∃ (b : Fin 8) (r : Fin 640), y = ix2 b r := ⟨y 0, y 1, eq_ix2 y⟩
  obtain ⟨n, hn⟩ : ∃ n : Fin 400000, n.val = 640 * t.val + r.val := ⟨⟨_, feats_row_lt t r⟩, rfl⟩
  show k1_pay2 (k1_pay4 (iblk1 V c 2 t)) (k1_pay6 (iblk1 V c 0 t) (iblk1 V c 3 t) (iblk1 V c 2 t)) (ix2 b r)
    = Cert.Spec.masksG (V c main_arg0) (V c main_v18) (V c main_v19) (((cfg1.win 7).blk t).view.emb (ix2 b r))
  rw [masks_block_emb t b r n hn]
  exact masks_payload_apply (iblk1 V c 0 t) (iblk1 V c 2 t) (iblk1 V c 3 t)
    (V c main_arg0) (V c main_v18) ((V c main_v19 : S8x400000.Idx → BitVec 32) (ix2 b n)) b r n
    (fun k' => feats_points_block_apply V c t b r (Spec.ch k') n hn) (fun k' => feats_offsets_block_apply V c t b k')
    (feats_mask_block_apply V c t b r n hn)

/-- An index of the features array is in point t's block iff each coordinate is in the block's range on its axis. -/
theorem feats_mem_blk (t : Fin cfg1.N) (i : S8x400000x3.Idx) :
    i ∈ ((cfg1.win 6).blk t).view.set ↔ ∀ a : Fin 3, win1_6.index t a * S8x640x3.size a ≤ (i a).val
      ∧ (i a).val < win1_6.index t a * S8x640x3.size a + S8x640x3.size a := by
  show i ∈ ((View.whole main_v20_1).slice (win1_6.rect t)).set ↔ _
  rw [View.set_slice_whole, Rect.mem_set_unit]
  exact Iff.rfl

/-- An index of the new mask is in point t's block iff each coordinate is in the block's range on its axis. -/
theorem masks_mem_blk (t : Fin cfg1.N) (i : S8x400000.Idx) :
    i ∈ ((cfg1.win 7).blk t).view.set ↔ ∀ a : Fin 2, win1_7.index t a * S8x640.size a ≤ (i a).val
      ∧ (i a).val < win1_7.index t a * S8x640.size a + S8x640.size a := by
  show i ∈ ((View.whole main_v20_2).slice (win1_7.rect t)).set ↔ _
  rw [View.set_slice_whole, Rect.mem_set_unit]
  exact Iff.rfl

/-- Every index of the features array is in the block of the point its row falls in: row n is written by point n / 640. -/
theorem feats_cover (i : S8x400000x3.Idx) :
    ∃ t : Fin cfg1.N, (cfg1.win 6).flush t = true ∧ i ∈ ((cfg1.win 6).blk t).view.set := by
  have h0 : (i 0).val < 8 := (i 0).isLt
  have h1 : (i 1).val < 400000 := (i 1).isLt
  have h2 : (i 2).val < 3 := (i 2).isLt
  have hN : cfg1.N = 625 := N_1
  obtain ⟨t, ht⟩ : ∃ t : Fin cfg1.N, t.val = (i 1).val / 640 := ⟨⟨(i 1).val / 640, by omega⟩, rfl⟩
  obtain ⟨-, -, -, -, -, -, -, -, -, -, -, -, e0, e1, e2, -⟩ := feats_block_indices t
  refine ⟨t, flush1_6 t, ?_⟩
  rw [feats_mem_blk]
  intro a
  match a with
  | ⟨0, _⟩ =>
    show win1_6.index t (0 : Fin 3) * 8 ≤ (i 0).val ∧ (i 0).val < win1_6.index t (0 : Fin 3) * 8 + 8
    rw [e0]; omega
  | ⟨1, _⟩ =>
    show win1_6.index t (1 : Fin 3) * 640 ≤ (i 1).val ∧ (i 1).val < win1_6.index t (1 : Fin 3) * 640 + 640
    rw [e1, ht]; omega
  | ⟨2, _⟩ =>
    show win1_6.index t (2 : Fin 3) * 3 ≤ (i 2).val ∧ (i 2).val < win1_6.index t (2 : Fin 3) * 3 + 3
    rw [e2]; omega

/-- Every index of the new mask is in the block of the point its column falls in. -/
theorem masks_cover (i : S8x400000.Idx) :
    ∃ t : Fin cfg1.N, (cfg1.win 7).flush t = true ∧ i ∈ ((cfg1.win 7).blk t).view.set := by
  have h0 : (i 0).val < 8 := (i 0).isLt
  have h1 : (i 1).val < 400000 := (i 1).isLt
  have hN : cfg1.N = 625 := N_1
  obtain ⟨t, ht⟩ : ∃ t : Fin cfg1.N, t.val = (i 1).val / 640 := ⟨⟨(i 1).val / 640, by omega⟩, rfl⟩
  obtain ⟨-, -, -, -, -, -, -, -, -, -, -, -, -, -, -, e0, e1⟩ := feats_block_indices t
  refine ⟨t, flush1_7 t, ?_⟩
  rw [masks_mem_blk]
  intro a
  match a with
  | ⟨0, _⟩ =>
    show win1_7.index t (0 : Fin 2) * 8 ≤ (i 0).val ∧ (i 0).val < win1_7.index t (0 : Fin 2) * 8 + 8
    rw [e0]; omega
  | ⟨1, _⟩ =>
    show win1_7.index t (1 : Fin 2) * 640 ≤ (i 1).val ∧ (i 1).val < win1_7.index t (1 : Fin 2) * 640 + 640
    rw [e1, ht]; omega

/-- The features. -/
theorem reg1_feats (c : Dev nD) :
    (dat1 (F := Ideal) V c).arrAt 6 cfg1.N
      = Cert.Spec.featsG (V c main_arg0) (V c main_v18) (V c main_v19) (V c main_arg1) (V c main_arg4) :=
  (dat1 V c).arrAt_eq_of_cover 6
    (Cert.Spec.featsG (V c main_arg0) (V c main_v18) (V c main_v19) (V c main_arg1) (V c main_arg4))
    (fun t _ => feats_flushed V c t) feats_cover

/-- The new mask, as [8, 400000]. -/
theorem reg1_masks (c : Dev nD) :
    (dat1 (F := Ideal) V c).arrAt 7 cfg1.N = Cert.Spec.masksG (V c main_arg0) (V c main_v18) (V c main_v19) :=
  (dat1 V c).arrAt_eq_of_cover 7 (Cert.Spec.masksG (V c main_arg0) (V c main_v18) (V c main_v19))
    (fun t _ => masks_flushed V c t) masks_cover

end Cert.KernelIdeal.Val

end
-- ==== Proof.KVal.lean ====
/- The kernel's run with its four results as the specification's functions of the arguments: the launch with its results
   named, the host operations around the regions, and the two regions' values put together. -/
import proofs.«101466_j2327872274833_1_alg».proof.Proof.KRun
import proofs.«101466_j2327872274833_1_alg».proof.Proof.KHost
import proofs.«101466_j2327872274833_1_alg».proof.Proof.KReg0
import proofs.«101466_j2327872274833_1_alg».proof.Proof.KReg1L
import proofs.«101466_j2327872274833_1_alg».proof.Proof.KReg1F

set_option maxRecDepth 16384

noncomputable section

namespace Cert.KernelIdeal.Val

open Idealize.ShloMosaic Idealize.ShloMosaic.TcCoe Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- Region 1 is entered with the specification's offset of the launched points and draws: the host operations between the
    regions compute it from region 0's minimum and maximum arrays. -/
theorem off_eq (c : Dev nD) :
    V6 m ρ c main_v18 = Cert.Spec.offOf (m ((c : Thread nD τ).loc main_arg0)) (m ((c : Thread nD τ).loc main_arg3)) := by
  rw [V6_v18 m ρ c, reg0_min (V0 m ρ) c, reg0_max (V0 m ρ) c, V0_arg0 m ρ c]
  rfl

theorem res_locs (c : Dev nD) :
    W8 m ρ c (Proc.devRef .tc main_v20_0)
      = Cert.Spec.locsG (m ((c : Thread nD τ).loc main_arg0))
          (Cert.Spec.offOf (m ((c : Thread nD τ).loc main_arg0)) (m ((c : Thread nD τ).loc main_arg3)))
          (Cert.Spec.mk2 (m ((c : Thread nD τ).loc main_arg2))) := by
  rw [W8_v20_0 m ρ c, reg1_locs (V6 m ρ) c, V6_arg0 m ρ c, off_eq m ρ c, V6_v19 m ρ c]

theorem res_feats (c : Dev nD) :
    W8 m ρ c (Proc.devRef .tc main_v20_1)
      = Cert.Spec.featsG (m ((c : Thread nD τ).loc main_arg0))
          (Cert.Spec.offOf (m ((c : Thread nD τ).loc main_arg0)) (m ((c : Thread nD τ).loc main_arg3)))
          (Cert.Spec.mk2 (m ((c : Thread nD τ).loc main_arg2)))
          (m ((c : Thread nD τ).loc main_arg1)) (m ((c : Thread nD τ).loc main_arg4)) := by
  rw [W8_v20_1 m ρ c, reg1_feats (V6 m ρ) c, V6_arg0 m ρ c, off_eq m ρ c, V6_v19 m ρ c, V6_arg1 m ρ c, V6_arg4 m ρ c]

theorem res_masks (c : Dev nD) :
    W8 m ρ c (Proc.devRef .tc main_v21)
      = Cert.Spec.flat (Cert.Spec.masksG (m ((c : Thread nD τ).loc main_arg0))
          (Cert.Spec.offOf (m ((c : Thread nD τ).loc main_arg0)) (m ((c : Thread nD τ).loc main_arg3)))
          (Cert.Spec.mk2 (m ((c : Thread nD τ).loc main_arg2)))) := by
  rw [W8_v21 m ρ c, reg1_masks (V6 m ρ) c, V6_arg0 m ρ c, off_eq m ρ c, V6_v19 m ρ c]

theorem res_off (c : Dev nD) :
    W8 m ρ c (Proc.devRef .tc main_v18)
      = Cert.Spec.offOf (m ((c : Thread nD τ).loc main_arg0)) (m ((c : Thread nD τ).loc main_arg3)) := by
  rw [W8_v18 m ρ c, reg1_off (V6 m ρ) c, off_eq m ρ c]

/-- The kernel's run at the ideal values: each result is the specification's function of the launched arguments, and the
    arguments end as launched. -/
theorem kernel_run : θ_run (defs (F := Ideal)) (onTc (τ := τ) (main (F := Ideal))) ⟨m, fun _ => 0, ρ⟩ (fun r => ∀ c : Dev nD,
      r.2.mem ((c.tc : Thread nD τ).loc main_v20_0)
        = Cert.Spec.locsG (m ((c.tc : Thread nD τ).loc main_arg0))
            (Cert.Spec.offOf (m ((c.tc : Thread nD τ).loc main_arg0)) (m ((c.tc : Thread nD τ).loc main_arg3)))
            (Cert.Spec.mk2 (m ((c.tc : Thread nD τ).loc main_arg2)))
      ∧ r.2.mem ((c.tc : Thread nD τ).loc main_v20_1)
        = Cert.Spec.featsG (m ((c.tc : Thread nD τ).loc main_arg0))
            (Cert.Spec.offOf (m ((c.tc : Thread nD τ).loc main_arg0)) (m ((c.tc : Thread nD τ).loc main_arg3)))
            (Cert.Spec.mk2 (m ((c.tc : Thread nD τ).loc main_arg2)))
            (m ((c.tc : Thread nD τ).loc main_arg1)) (m ((c.tc : Thread nD τ).loc main_arg4))
      ∧ r.2.mem ((c.tc : Thread nD τ).loc main_v21)
        = Cert.Spec.flat (Cert.Spec.masksG (m ((c.tc : Thread nD τ).loc main_arg0))
            (Cert.Spec.offOf (m ((c.tc : Thread nD τ).loc main_arg0)) (m ((c.tc : Thread nD τ).loc main_arg3)))
            (Cert.Spec.mk2 (m ((c.tc : Thread nD τ).loc main_arg2))))
      ∧ r.2.mem ((c.tc : Thread nD τ).loc main_v18)
        = Cert.Spec.offOf (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c).1.trans (res_locs m ρ c), (h c).2.1.trans (res_feats m ρ c), (h c).2.2.1.trans (res_masks m ρ c),
     (h c).2.2.2.1.trans (res_off m ρ c), (h c).2.2.2.2⟩) (Cert.KernelIdeal.GenP.run_vals (F := Ideal) m ρ)

end Cert.KernelIdeal.Val

end
-- ==== Proof.RefOff.lean ====
/- The reference's placement offset, read index by index, is the specification's: its two whole-axis reductions are the
   folds of min and max over the 400000 points, and the rest is pointwise. -/
import proofs.«101466_j2327872274833_1_alg».proof.Proof.RefRead
import proofs.«101466_j2327872274833_1_alg».proof.Proof.Spec
import proofs.«101466_j2327872274833_1_alg».proof.Proof.LibReduceMinMax
import Idealize.ShloMosaic.Lib.ValueIdx
import Idealize.ShloMosaic.Lib.IdealHost

set_option maxRecDepth 16384

noncomputable section

namespace Cert.ReferenceIdeal.RefVal

open Idealize.ShloMosaic Idealize.ShloMosaic.TcCoe Idealize.ShloMosaic.ValueIdx
open Cert.ReferenceIdeal Cert.ReferenceIdeal.ReadP

/-- The shape fact of the reduction over the points axis, in the form that names the inserted index: dropping axis 1 of
    [8, 400000, 3] leaves [8, 3]. -/
theorem reduces_points : S8x400000x3.Reduces [1] S8x3 := by decide

/-- The index of [8, 400000, 3] over the result index (b, k) with point n inserted on the dropped axis is (b, n, k). -/
theorem lift_points (b : Fin 8) (k : Fin 3) (n : Fin 400000) :
    reduces_points.lift (ix2 b k) n = ix3 b n k :=
  funext fun a => Fin.ext (by match a with | ⟨0, _⟩ => rfl | ⟨1, _⟩ => rfl | ⟨2, _⟩ => rfl)

/-- Channel k < 3 of the first three channels is channel k of the four-channel array. -/
theorem idx_slice_points (b : Fin 8) (n : Fin 400000) (k : Fin 3) :
    idx_main_v0 (ix3 b n k) = ix3 b n (Cert.Spec.ch k) :=
  funext fun a => Fin.ext (by match a with | ⟨0, _⟩ => rfl | ⟨1, _⟩ => rfl | ⟨2, _⟩ => rfl)

/-- The reference's scaled coordinate at (b, n, k): the scale's word times the point's channel k. -/
theorem ref_sc (P : (⟨S8x400000x4, .f32⟩ : BufTy).Contents (Elt Ideal)) (b : Fin 8) (n : Fin 400000) (k : Fin 3) :
    val_main_v2 (F := Ideal) P (ix3 b n k) = Cert.Spec.sc P b n k := by
  rw [val_main_v2_apply, val_main_v1_apply, val_main_v0_apply, val_main_cst_apply, idx_slice_points]
  rfl

/-- The reference's minimum over the points axis. -/
theorem ref_min (P : (⟨S8x400000x4, .f32⟩ : BufTy).Contents (Elt Ideal)) : val_main_v3 (F := Ideal) P = Cert.Spec.mnOf P := by
  funext j
  obtain ⟨b, k, rfl⟩ : ∃ (b : Fin 8) (k : Fin 3), j = ix2 b k := ⟨j 0, j 1, eq_ix2 j⟩
  unfold val_main_v3
  refine (Cert.Lib.hostReduce_minimumf_single (val_main_v2 (F := Ideal) P) (val_main_cst_0 (F := Ideal)) _ reduces_points _
    (ix2 b k)).trans ?_
  rw [val_main_cst_0_apply]
  exact Finset.fold_congr (fun n _ => (congrArg (val_main_v2 (F := Ideal) P) (lift_points b k n)).trans (ref_sc P b n k))

/-- The reference's maximum over the points axis. -/
theorem ref_max (P : (⟨S8x400000x4, .f32⟩ : BufTy).Contents (Elt Ideal)) : val_main_v4 (F := Ideal) P = Cert.Spec.mxOf P := by
  funext j
  obtain ⟨b, k, rfl⟩ : ∃ (b : Fin 8) (k : Fin 3), j = ix2 b k := ⟨j 0, j 1, eq_ix2 j⟩
  unfold val_main_v4
  refine (Cert.Lib.hostReduce_maximumf_single (val_main_v2 (F := Ideal) P) (val_main_cst_1 (F := Ideal)) _ reduces_points _
    (ix2 b k)).trans ?_
  rw [val_main_cst_1_apply]
  exact Finset.fold_congr (fun n _ => (congrArg (val_main_v2 (F := Ideal) P) (lift_points b k n)).trans (ref_sc P b n k))

/-- Row 0 of the draws, taken as a [8, 1, 3] slice and read as [8, 3], at (b, k) is the draw at (b, 0, k). -/
theorem idx_draw0 (b : Fin 8) (k : Fin 3) : idx_main_v12 (idx_main_v13 (ix2 b k)) = ix3 b (0 : Fin 2) k :=
  funext fun a => Fin.ext (by
    have hb : b.val < 8 := b.isLt
    have hk : k.val < 3 := k.isLt
    match a with
    | ⟨0, _⟩ => show (b.val * 3 + k.val) / 3 = b.val; omega
    | ⟨1, _⟩ => rfl
    | ⟨2, _⟩ => show (b.val * 3 + k.val) % 3 = k.val; omega)

/-- Row 1 of the draws likewise: at (b, k) it is the draw at (b, 1, k). -/
theorem idx_draw1 (b : Fin 8) (k : Fin 3) : idx_main_v19 (idx_main_v20 (ix2 b k)) = ix3 b (1 : Fin 2) k :=
  funext fun a => Fin.ext (by
    have hb : b.val < 8 := b.isLt
    have hk : k.val < 3 := k.isLt
    match a with
    | ⟨0, _⟩ => show (b.val * 3 + k.val) / 3 = b.val; omega
    | ⟨1, _⟩ => rfl
    | ⟨2, _⟩ => show (b.val * 3 + k.val) % 3 = k.val; omega)

/-- The reference's offset array. -/
theorem ref_off (P : (⟨S8x400000x4, .f32⟩ : BufTy).Contents (Elt Ideal)) (U : (⟨S8x2x3, .f32⟩ : BufTy).Contents (Elt Ideal)) :
    val_main_v22 (F := Ideal) P U = Cert.Spec.offOf P U := by
  funext j
  obtain ⟨b, k, rfl⟩ : ∃ (b : Fin 8) (k : Fin 3), j = ix2 b k := ⟨j 0, j 1, eq_ix2 j⟩
  rw [val_main_v22_apply, val_main_v15_apply, val_main_v21_apply, val_main_v14_apply, val_main_v20_apply, val_main_v13_apply,
    val_main_v19_apply, val_main_v12_apply, val_main_v11_apply, val_main_v18_apply, val_main_v10_apply, val_main_v17_apply,
    val_main_v8_apply, val_main_v7_apply, val_main_v6_apply, val_main_v5_apply, val_main_v9_apply, val_main_v16_apply,
    val_main_call0_v1_apply, val_main_call1_v1_apply, val_main_call0_v0_apply, val_main_call1_v0_apply,
    val_main_cst_2_apply, val_main_cst_3_apply, val_main_cst_4_apply, val_main_cst_5_apply, val_main_cst_6_apply,
    idx_draw0, idx_draw1, ref_min, ref_max]
  rfl

/-- The offset's two broadcasts, to [8, 1, 3] and then along the points, read (b, n, k) at (b, k). -/
theorem idx_off_points (b : Fin 8) (n : Fin 400000) (k : Fin 3) : idx_main_v23 (idx_main_v24 (ix3 b n k)) = ix2 b k :=
  funext fun a => Fin.ext (by match a with | ⟨0, _⟩ => rfl | ⟨1, _⟩ => rfl)

/-- The reference's shifted coordinate at a point. -/
theorem ref_a (P : (⟨S8x400000x4, .f32⟩ : BufTy).Contents (Elt Ideal)) (U : (⟨S8x2x3, .f32⟩ : BufTy).Contents (Elt Ideal))
    (b : Fin 8) (n : Fin 400000) (k : Fin 3) :
    val_main_v25 (F := Ideal) P U (ix3 b n k) = Cert.Spec.aAt P (Cert.Spec.offOf P U) b n k := by
  rw [val_main_v25_apply, val_main_v24_apply, val_main_v23_apply, idx_off_points, ref_off, ref_sc]
  rfl

end Cert.ReferenceIdeal.RefVal

end
-- ==== Proof.RefOut.lean ====
/- The reference's three point-wise results, read index by index, are the specification's. -/
import proofs.«101466_j2327872274833_1_alg».proof.Proof.RefRead
import proofs.«101466_j2327872274833_1_alg».proof.Proof.Spec
import proofs.«101466_j2327872274833_1_alg».proof.Proof.LibReduceMinMax
import Idealize.ShloMosaic.Lib.ValueIdx
import Idealize.ShloMosaic.Lib.IdealHost
import proofs.«101466_j2327872274833_1_alg».proof.Proof.RefOff
set_option maxRecDepth 16384

noncomputable section

namespace Cert.ReferenceIdeal.RefVal

open Idealize.ShloMosaic Idealize.ShloMosaic.TcCoe Idealize.ShloMosaic.ValueIdx
open Cert.ReferenceIdeal Cert.ReferenceIdeal.ReadP

/-! ## The validity bit of a point -/

/-- Dropping the channel axis of [8, 400000, 3] leaves [8, 400000]. -/
theorem reduces_channels : S8x400000x3.Reduces [2] S8x400000 := by decide

/-- The index over (b, n) with channel k inserted is (b, n, k). -/
theorem lift_channels (b : Fin 8) (n : Fin 400000) (k : Fin 3) :
    reduces_channels.lift (ix2 b n) k = ix3 b n k :=
  funext fun a => Fin.ext (by match a with | ⟨0, _⟩ => rfl | ⟨1, _⟩ => rfl | ⟨2, _⟩ => rfl)

/-- The minimum over the three channels of the shifted coordinate of point (b, n), from the word of +∞. -/
theorem min_channels_at (P : (⟨S8x400000x4, .f32⟩ : BufTy).Contents (Elt Ideal)) (U : (⟨S8x2x3, .f32⟩ : BufTy).Contents (Elt Ideal))
    (b : Fin 8) (n : Fin 400000) :
    val_main_v26 (F := Ideal) P U (ix2 b n)
      = (Finset.univ : Finset (Fin 3)).fold min Cert.Spec.cTop (Cert.Spec.aAt P (Cert.Spec.offOf P U) b n) := by
  refine (Cert.Lib.hostReduce_minimumf_single (φ := .f32) (s := S8x400000x3) (t := S8x400000) (u := S_) (a := 2)
    (val_main_v25 (F := Ideal) P U) (val_main_cst_7 (F := Ideal)) _ reduces_channels _ (ix2 b n)).trans ?_
  refine Finset.fold_congr (fun (k : Fin 3) _ => ?_)
  exact (congrArg (val_main_v25 (F := Ideal) P U) (lift_channels b n k)).trans (ref_a P U b n k)

/-- The maximum over the three channels of the shifted coordinate of point (b, n), from the word of −∞. -/
theorem max_channels_at (P : (⟨S8x400000x4, .f32⟩ : BufTy).Contents (Elt Ideal)) (U : (⟨S8x2x3, .f32⟩ : BufTy).Contents (Elt Ideal))
    (b : Fin 8) (n : Fin 400000) :
    val_main_v29 (F := Ideal) P U (ix2 b n)
      = (Finset.univ : Finset (Fin 3)).fold max Cert.Spec.cBot (Cert.Spec.aAt P (Cert.Spec.offOf P U) b n) := by
  refine (Cert.Lib.hostReduce_maximumf_single (φ := .f32) (s := S8x400000x3) (t := S8x400000) (u := S_) (a := 2)
    (val_main_v25 (F := Ideal) P U) (val_main_cst_9 (F := Ideal)) _ reduces_channels _ (ix2 b n)).trans ?_
  refine Finset.fold_congr (fun (k : Fin 3) _ => ?_)
  exact (congrArg (val_main_v25 (F := Ideal) P U) (lift_channels b n k)).trans (ref_a P U b n k)

/-- The flat mask reshaped to [8, 400000], at (b, n), is the word at the flat position b · 400000 + n. -/
theorem mask_word_at (Mk : (⟨S3200000, .i32⟩ : BufTy).Contents (Elt Ideal)) (b : Fin 8) (n : Fin 400000) :
    val_main_v33 (F := Ideal) Mk (ix2 b n) = Cert.Spec.mk2 Mk (ix2 b n) := by
  rw [val_main_v33_apply]
  exact congrArg Mk (funext fun a => match a with | ⟨0, _⟩ => rfl)

/-- The validity bit of point (b, n): in the box on every channel, and the mask word positive. -/
theorem valid_at (P : (⟨S8x400000x4, .f32⟩ : BufTy).Contents (Elt Ideal)) (Mk : (⟨S3200000, .i32⟩ : BufTy).Contents (Elt Ideal))
    (U : (⟨S8x2x3, .f32⟩ : BufTy).Contents (Elt Ideal)) (b : Fin 8) (n : Fin 400000) :
    val_main_v36 (F := Ideal) P Mk U (ix2 b n)
      = Cert.Spec.validAt P (Cert.Spec.offOf P U) (Cert.Spec.mk2 Mk (ix2 b n)) b n := by
  rw [val_main_v36_apply, val_main_v32_apply, val_main_v28_apply, val_main_v31_apply, val_main_v35_apply,
    val_main_v27_apply, val_main_v30_apply, val_main_v34_apply, val_main_cst_8_apply, val_main_cst_10_apply, val_main_c_apply,
    min_channels_at, max_channels_at, mask_word_at]
  rfl

/-! ## The locations -/

/-- Channels 0..2 of the joined array are the truncated shifted coordinates. -/
theorem joined_coord_at (P : (⟨S8x400000x4, .f32⟩ : BufTy).Contents (Elt Ideal)) (U : (⟨S8x2x3, .f32⟩ : BufTy).Contents (Elt Ideal))
    (b : Fin 8) (n : Fin 400000) (k : Fin 4) (h : k.val < 3) :
    val_main_v41 (F := Ideal) P U (ix3 b n k) = Ideal.fptosi 32 (Cert.Spec.aAt P (Cert.Spec.offOf P U) b n ⟨k.val, h⟩) := by
  unfold val_main_v41
  refine (concatenate_pair_apply_left (t := S8x400000x4) (s₁ := S8x400000x3) (s₂ := S8x400000x1) (2 : Fin 3)
    (val_main_v37 (F := Ideal) P U) (val_main_v40 (F := Ideal)) _ (ix3 b n k) rfl (ix3 b n (⟨k.val, h⟩ : Fin 3))
    (fun c => by match c with | ⟨0, _⟩ => rfl | ⟨1, _⟩ => rfl | ⟨2, _⟩ => rfl)).trans ?_
  rw [val_main_v37_apply, ref_a]
  rfl

/-- Channel 3 of the joined array is the sample number. -/
theorem joined_sample_at (P : (⟨S8x400000x4, .f32⟩ : BufTy).Contents (Elt Ideal)) (U : (⟨S8x2x3, .f32⟩ : BufTy).Contents (Elt Ideal))
    (b : Fin 8) (n : Fin 400000) (k : Fin 4) (h : ¬ k.val < 3) :
    val_main_v41 (F := Ideal) P U (ix3 b n k) = BitVec.ofNat 32 b.val := by
  unfold val_main_v41
  refine (concatenate_pair_apply_right (t := S8x400000x4) (s₁ := S8x400000x3) (s₂ := S8x400000x1) (2 : Fin 3)
    (val_main_v37 (F := Ideal) P U) (val_main_v40 (F := Ideal)) _ (ix3 b n k) rfl rfl (ix3 b n (0 : Fin 1))
    (fun c hc => by
      match c, hc with
      | ⟨0, _⟩, _ => rfl
      | ⟨1, _⟩, _ => rfl
      | ⟨2, _⟩, hc => exact absurd rfl hc)
    (by show 0 + 3 = k.val; have := k.isLt; omega)).trans ?_
  rw [val_main_v40_apply, val_main_v39_apply, val_main_v38_apply]

/-- The validity bit widened to a word and repeated over the four channels. -/
theorem valid_word4_at (P : (⟨S8x400000x4, .f32⟩ : BufTy).Contents (Elt Ideal)) (Mk : (⟨S3200000, .i32⟩ : BufTy).Contents (Elt Ideal))
    (U : (⟨S8x2x3, .f32⟩ : BufTy).Contents (Elt Ideal)) (b : Fin 8) (n : Fin 400000) (k : Fin 4) :
    val_main_v44 (F := Ideal) P Mk U (ix3 b n k)
      = (Cert.Spec.validAt P (Cert.Spec.offOf P U) (Cert.Spec.mk2 Mk (ix2 b n)) b n).setWidth 32 := by
  rw [val_main_v44_apply, val_main_v43_apply, val_main_v42_apply,
    show idx_main_v42 (idx_main_v44 (ix3 b n k)) = ix2 b n from
      funext fun a => match a with | ⟨0, _⟩ => rfl | ⟨1, _⟩ => rfl,
    valid_at]

/-- One word of the reference's locations. -/
theorem locs_at (P : (⟨S8x400000x4, .f32⟩ : BufTy).Contents (Elt Ideal)) (Mk : (⟨S3200000, .i32⟩ : BufTy).Contents (Elt Ideal))
    (U : (⟨S8x2x3, .f32⟩ : BufTy).Contents (Elt Ideal)) (b : Fin 8) (n : Fin 400000) (k : Fin 4) :
    val_main_v45 (F := Ideal) P Mk U (ix3 b n k)
      = Cert.Spec.locAt P (Cert.Spec.offOf P U) (Cert.Spec.mk2 Mk (ix2 b n)) b n k := by
  rw [val_main_v45_apply, valid_word4_at]
  unfold Cert.Spec.locAt
  by_cases h : k.val < 3
  · rw [dif_pos h, joined_coord_at P U b n k h]
  · rw [dif_neg h, joined_sample_at P U b n k h]

/-- The reference's locations. -/
theorem ref_locs (P : (⟨S8x400000x4, .f32⟩ : BufTy).Contents (Elt Ideal)) (Mk : (⟨S3200000, .i32⟩ : BufTy).Contents (Elt Ideal))
    (U : (⟨S8x2x3, .f32⟩ : BufTy).Contents (Elt Ideal)) :
    val_main_v45 (F := Ideal) P Mk U = Cert.Spec.locsG P (Cert.Spec.offOf P U) (Cert.Spec.mk2 Mk) := by
  funext i
  obtain ⟨b, n, k, rfl⟩ : ∃ (b : Fin 8) (n : Fin 400000) (k : Fin 4), i = ix3 b n k := ⟨i 0, i 1, i 2, eq_ix3 i⟩
  exact locs_at P Mk U b n k

/-! ## The features -/

/-- One of the reference's features: the noised feature times the validity bit read as a number. -/
theorem feats_at (P : (⟨S8x400000x4, .f32⟩ : BufTy).Contents (Elt Ideal)) (Fe : (⟨S8x400000x3, .f32⟩ : BufTy).Contents (Elt Ideal))
    (Mk : (⟨S3200000, .i32⟩ : BufTy).Contents (Elt Ideal)) (U : (⟨S8x2x3, .f32⟩ : BufTy).Contents (Elt Ideal))
    (Nz : (⟨S8x3, .f32⟩ : BufTy).Contents (Elt Ideal)) (b : Fin 8) (n : Fin 400000) (k : Fin 3) :
    val_main_v52 (F := Ideal) P Fe Mk U Nz (ix3 b n k)
      = Cert.Spec.featAt P (Cert.Spec.offOf P U) (Cert.Spec.mk2 Mk (ix2 b n)) (Fe (ix3 b n k)) (Nz (ix2 b k)) b n := by
  rw [val_main_v52_apply, val_main_v48_apply, val_main_v47_apply, val_main_v46_apply, val_main_v51_apply, val_main_v50_apply,
    val_main_v49_apply,
    show idx_main_v46 (idx_main_v47 (ix3 b n k)) = ix2 b k from
      funext fun a => match a with | ⟨0, _⟩ => rfl | ⟨1, _⟩ => rfl,
    show idx_main_v49 (idx_main_v51 (ix3 b n k)) = ix2 b n from
      funext fun a => match a with | ⟨0, _⟩ => rfl | ⟨1, _⟩ => rfl,
    valid_at]
  rfl

/-- The reference's features. -/
theorem ref_feats (P : (⟨S8x400000x4, .f32⟩ : BufTy).Contents (Elt Ideal)) (Fe : (⟨S8x400000x3, .f32⟩ : BufTy).Contents (Elt Ideal))
    (Mk : (⟨S3200000, .i32⟩ : BufTy).Contents (Elt Ideal)) (U : (⟨S8x2x3, .f32⟩ : BufTy).Contents (Elt Ideal))
    (Nz : (⟨S8x3, .f32⟩ : BufTy).Contents (Elt Ideal)) :
    val_main_v52 (F := Ideal) P Fe Mk U Nz = Cert.Spec.featsG P (Cert.Spec.offOf P U) (Cert.Spec.mk2 Mk) Fe Nz := by
  funext i
  obtain ⟨b, n, k, rfl⟩ : ∃ (b : Fin 8) (n : Fin 400000) (k : Fin 3), i = ix3 b n k := ⟨i 0, i 1, i 2, eq_ix3 i⟩
  exact feats_at P Fe Mk U Nz b n k

/-! ## The new mask -/

/-- The [8, 400000] reading of the flat mask at (j / 400000, j % 400000) is the flat mask's word j:
    (j / 400000) · 400000 + j % 400000 = j. -/
theorem mk2_at_divmod (Mk : (⟨S3200000, .i32⟩ : BufTy).Contents (Elt Ideal)) (j : Fin 3200000)
    (hq : j.val / 400000 < 8) (hr : j.val % 400000 < 400000) :
    Cert.Spec.mk2 Mk (ix2 (⟨j.val / 400000, hq⟩ : Fin 8) (⟨j.val % 400000, hr⟩ : Fin 400000)) = Mk (ix1 j) := by
  unfold Cert.Spec.mk2
  exact congrArg Mk (congrArg (ix1 (n := 3200000))
    (Fin.ext (by show j.val / 400000 * 400000 + j.val % 400000 = j.val; omega)))

/-- One word of the reference's new mask. -/
theorem masks_at (P : (⟨S8x400000x4, .f32⟩ : BufTy).Contents (Elt Ideal)) (Mk : (⟨S3200000, .i32⟩ : BufTy).Contents (Elt Ideal))
    (U : (⟨S8x2x3, .f32⟩ : BufTy).Contents (Elt Ideal)) (j : Fin 3200000) :
    val_main_v55 (F := Ideal) P Mk U (ix1 j)
      = Cert.Spec.flat (Cert.Spec.masksG P (Cert.Spec.offOf P U) (Cert.Spec.mk2 Mk)) (ix1 j) := by
  have hq : j.val / 400000 < 8 := by have := j.isLt; omega
  have hr : j.val % 400000 < 400000 := Nat.mod_lt _ (by decide)
  rw [val_main_v55_apply, val_main_v54_apply, val_main_v53_apply,
    show idx_main_v53 (ix1 j) = ix2 (⟨j.val / 400000, hq⟩ : Fin 8) (⟨j.val % 400000, hr⟩ : Fin 400000) from
      funext fun a => match a with | ⟨0, _⟩ => rfl | ⟨1, _⟩ => rfl,
    valid_at, ← mk2_at_divmod Mk j hq hr]
  rfl

/-- The reference's new mask. -/
theorem ref_masks (P : (⟨S8x400000x4, .f32⟩ : BufTy).Contents (Elt Ideal)) (Mk : (⟨S3200000, .i32⟩ : BufTy).Contents (Elt Ideal))
    (U : (⟨S8x2x3, .f32⟩ : BufTy).Contents (Elt Ideal)) :
    val_main_v55 (F := Ideal) P Mk U = Cert.Spec.flat (Cert.Spec.masksG P (Cert.Spec.offOf P U) (Cert.Spec.mk2 Mk)) := by
  funext i
  obtain ⟨j, rfl⟩ : ∃ j : Fin 3200000, i = ix1 j := ⟨i 0, eq_ix1 i⟩
  exact masks_at P Mk U j

end Cert.ReferenceIdeal.RefVal

end
-- ==== Proof.lean ====
/-
  The proof of `Cert.Claim`: a two-pass kernel (per-sample range of the scaled coordinates, then the point-wise transform)
  against the plain jnp reference.

  Both programs compute, for points P, features Fe, a mask Mk, draws U and noise Nz: the scaled coordinates 20 · P, their
  per-sample minimum and maximum over the 400000 points, the placement offset from those and the draws, the shifted
  coordinates, a point's validity (inside the box on every axis and mask positive), and from these the truncated
  locations with the sample number appended, the noised features and the new mask, each zeroed where the point is not
  valid (Proof/Spec.lean states all of it index by index).

  The kernel takes the minimum and maximum in 250 blocks of 1600 points, folding each block's minimum into a running one:
  a minimum over a set is the minimum of the minima over the pieces of any partition of it, so the running value after the
  last block is the minimum over all points (min and max on the extended reals are associative, commutative and idempotent;
  no input needs to be finite). The host operations between the two passes are the reference's own, operation for
  operation. The second pass applies the reference's point-wise operations to blocks of 640 points; its only other
  spelling is the validity bit's conversion to a float (a sign-extended 32-bit word against the bit read unsigned: the
  same 0 or 1).

  So at the ideal values the kernel's four results (Proof/KVal.lean, over the launch of Proof/KRun.lean) and the
  reference's (Proof/RefOff.lean, Proof/RefOut.lean, over its run) are the same four functions of the arguments.
  The ideal pass rewrote nothing, so `preserves` is `True`; the two kernel frames are the generated ones, and the
  reference's frame is its run with the results dropped.
-/
import proofs.«101466_j2327872274833_1_alg».proof.Defs
import proofs.«101466_j2327872274833_1_alg».proof.Proof.Gen.Kernel
import proofs.«101466_j2327872274833_1_alg».proof.Proof.Gen.Kernel.Frame
import proofs.«101466_j2327872274833_1_alg».proof.Proof.Gen.KernelIdeal
import proofs.«101466_j2327872274833_1_alg».proof.Proof.Gen.KernelIdeal.Frame
import proofs.«101466_j2327872274833_1_alg».proof.Proof.Gen.ReferenceIdeal
import proofs.«101466_j2327872274833_1_alg».proof.Proof.Gen.Pre_finite_inputs
import proofs.«101466_j2327872274833_1_alg».proof.Proof.KVal
import proofs.«101466_j2327872274833_1_alg».proof.Proof.RefOut
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the results dropped. -/
theorem frame_ri : Cert.frame_ReferenceIdeal := fun m ρ _ =>
  (θ_run Cert.ReferenceIdeal.defs _ _).mono (fun _ h c => (h c).2.2.2.2) (Cert.ReferenceIdeal.ValueP.run (F := Ideal) m ρ)

/-- From memories agreeing on the arguments both programs end with the specification's four results. -/
theorem algebraic : Cert.algebraic_KernelIdeal_ReferenceIdeal := by
  intro m ρ m' ρ' _ hagree
  refine ⟨_, _, _, _, Cert.KernelIdeal.Val.kernel_run m ρ, ?_⟩
  refine (θ_run Cert.ReferenceIdeal.defs _ _).mono (fun r h c => ?_) (Cert.ReferenceIdeal.ValueP.run (F := Ideal) m' ρ')
  obtain ⟨h0, h1, h2, h3, hargs⟩ := h c
  obtain ⟨e0, e1, e2, e3, e4⟩ := hagree c
  refine ⟨?_, ?_, ?_, ?_, hargs⟩
  · rw [h0, Cert.ReferenceIdeal.ReadP.val_main_v45_eq, Cert.ReferenceIdeal.RefVal.ref_locs, e0, e2, e3]
  · rw [h1, Cert.ReferenceIdeal.ReadP.val_main_v52_eq, Cert.ReferenceIdeal.RefVal.ref_feats, e0, e1, e2, e3, e4]
  · rw [h2, Cert.ReferenceIdeal.ReadP.val_main_v55_eq, Cert.ReferenceIdeal.RefVal.ref_masks, e0, e2, e3]
  · rw [h3, Cert.ReferenceIdeal.ReadP.val_main_v22_eq, Cert.ReferenceIdeal.RefVal.ref_off, e0, e3]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
